-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S64x256x512 : Shape := ⟨3, ![64, 256, 512]⟩
abbrev S64x2048x512 : Shape := ⟨3, ![64, 2048, 512]⟩
abbrev S64x2048 : Shape := ⟨2, ![64, 2048]⟩
abbrev S64x512x2048 : Shape := ⟨3, ![64, 512, 2048]⟩
abbrev S64x512 : Shape := ⟨2, ![64, 512]⟩
abbrev S_ : Shape := ⟨0, ![]⟩

class Facts : Prop where
  bcast_S_S64x256x512 : S_.BroadcastsInDim S64x256x512 (![] : Fin 0 → Fin S64x256x512.rank)
  reducesTo_S64x256x512_S_d0_1_2 : S64x256x512.ReducesTo [0, 1, 2] S_
  h_S_ : 0 < S_.numel
  bcast_S_S64x2048x512 : S_.BroadcastsInDim S64x2048x512 (![] : Fin 0 → Fin S64x2048x512.rank)
  reducesTo_S64x2048x512_S_d0_1_2 : S64x2048x512.ReducesTo [0, 1, 2] S_
  bcast_S_S64x2048 : S_.BroadcastsInDim S64x2048 (![] : Fin 0 → Fin S64x2048.rank)
  reducesTo_S64x2048_S_d0_1 : S64x2048.ReducesTo [0, 1] S_
  bcast_S_S64x512x2048 : S_.BroadcastsInDim S64x512x2048 (![] : Fin 0 → Fin S64x512x2048.rank)
  reducesTo_S64x512x2048_S_d0_1_2 : S64x512x2048.ReducesTo [0, 1, 2] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg0 : IVec S64 32) (main_arg5 : FVec F S64x512 .f32) (main_v13 : IVec S_ 1) (main_v16 : IVec S64x512x2048 1) : IVec S_ 1 :=
  let main_c_5 : IVec S_ 1 := constantI S_ 1 1#1
  let main_v17 : IVec S_ 1 := (fun x v => Host.reduce IntOp.andi x v reducesTo_S64x512x2048_S_d0_1_2 h_S_) main_v16 main_c_5
  let main_v18 : IVec S_ 1 := andi main_v13 main_v17
  let main_v19 : FVec F S64x512 .f32 := Host.absf main_arg5
  let main_cst_6 : FVec F S_ .f32 := constant S_ .f32 0x7F800000#32
  let main_v20 : FVec F S64x512 .f32 := broadcastInDim S64x512 ![] bcast_S_S64x512 main_cst_6
  let main_v21 : IVec S64x512 1 := cmpf .olt main_v19 main_v20
  let main_c_7 : IVec S_ 1 := constantI S_ 1 1#1
  let main_v22 : IVec S_ 1 := (fun x v => Host.reduce IntOp.andi x v reducesTo_S64x512_S_d0_1 h_S_) main_v21 main_c_7
  let main_v23 : IVec S_ 1 := andi main_v18 main_v22
  let main_c_8 : IVec S_ 32 := constantI S_ 32 0#32
  let main_v24 : IVec S64 32 := broadcastInDim S64 ![] bcast_S_S64 main_c_8
  let main_v25 : IVec S64 1 := cmpi .sge main_arg0 main_v24
  let main_c_9 : IVec S_ 1 := constantI S_ 1 1#1
  let main_v26 : IVec S_ 1 := (fun x v => Host.reduce IntOp.andi x v reducesTo_S64_S_d0 h_S_) main_v25 main_c_9
  let main_v27 : IVec S_ 1 := andi main_v23 main_v26
  let main_c_10 : IVec S_ 32 := constantI S_ 32 64#32
  let main_v28 : IVec S64 32 := broadcastInDim S64 ![] bcast_S_S64 main_c_10
  let main_v29 : IVec S64 1 := cmpi .slt main_arg0 main_v28
  let main_c_11 : IVec S_ 1 := constantI S_ 1 1#1
  let main_v30 : IVec S_ 1 := (fun x v => Host.reduce IntOp.andi x v reducesTo_S64_S_d0 h_S_) main_v29 main_c_11
  let main_v31 : IVec S_ 1 := andi main_v27 main_v30
  main_v31

def fn {F : FTy → Type} [FloatOps F] (main_arg0 : IVec S64 32) (main_arg1 : FVec F S64x256x512 .f32) (main_arg2 : FVec F S64x2048x512 .f32) (main_arg3 : FVec F S64x2048 .f32) (main_arg4 : FVec F S64x512x2048 .f32) (main_arg5 : FVec F S64x512 .f32) : IVec S_ 1 :=
  let main_v0 : FVec F S64x256x512 .f32 := Host.absf main_arg1
  let main_cst : FVec F S_ .f32 := constant S_ .f32 0x7F800000#32
  let main_v1 : FVec F S64x256x512 .f32 := broadcastInDim S64x256x512 ![] bcast_S_S64x256x512 main_cst
  let main_v2 : IVec S64x256x512 1 := cmpf .olt main_v0 main_v1
  let main_c : IVec S_ 1 := constantI S_ 1 1#1
  let main_v3 : IVec S_ 1 := (fun x v => Host.reduce IntOp.andi x v reducesTo_S64x256x512_S_d0_1_2 h_S_) main_v2 main_c
  let main_v4 : FVec F S64x2048x512 .f32 := Host.absf main_arg2
  let main_cst_0 : FVec F S_ .f32 := constant S_ .f32 0x7F800000#32
  let main_v5 : FVec F S64x2048x512 .f32 := broadcastInDim S64x2048x512 ![] bcast_S_S64x2048x512 main_cst_0
  let main_v6 : IVec S64x2048x512 1 := cmpf .olt main_v4 main_v5
  let main_c_1 : IVec S_ 1 := constantI S_ 1 1#1
  let main_v7 : IVec S_ 1 := (fun x v => Host.reduce IntOp.andi x v reducesTo_S64x2048x512_S_d0_1_2 h_S_) main_v6 main_c_1
  let main_v8 : IVec S_ 1 := andi main_v3 main_v7
  let main_v9 : FVec F S64x2048 .f32 := Host.absf main_arg3
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  let main_v14 : FVec F S64x512x2048 .f32 := Host.absf main_arg4
  let main_cst_4 : FVec F S_ .f32 := constant S_ .f32 0x7F800000#32
  let main_v15 : FVec F S64x512x2048 .f32 := broadcastInDim S64x512x2048 ![] bcast_S_S64x512x2048 main_cst_4
  let main_v16 : IVec S64x512x2048 1 := cmpf .olt main_v14 main_v15
  fn_part1 (F := F) main_arg0 main_arg5 main_v13 main_v16
-- ==== Kernel.lean ====
abbrev S64 : Shape := ⟨1, ![64]⟩
abbrev S64x256x512 : Shape := ⟨3, ![64, 256, 512]⟩
abbrev S64x2048x512 : Shape := ⟨3, ![64, 2048, 512]⟩
abbrev S64x2048 : Shape := ⟨2, ![64, 2048]⟩
abbrev S64x512x2048 : Shape := ⟨3, ![64, 512, 2048]⟩
abbrev S64x512 : Shape := ⟨2, ![64, 512]⟩
abbrev S_ : Shape := ⟨0, ![]⟩
abbrev S64x1 : Shape := ⟨2, ![64, 1]⟩
abbrev S1 : Shape := ⟨1, ![1]⟩
abbrev S1x1 : Shape := ⟨2, ![1, 1]⟩
abbrev S64x1x2048 : Shape := ⟨3, ![64, 1, 2048]⟩
abbrev S64x1x512 : Shape := ⟨3, ![64, 1, 512]⟩
abbrev S1x256x512 : Shape := ⟨3, ![1, 256, 512]⟩
abbrev S1x2048x512 : Shape := ⟨3, ![1, 2048, 512]⟩
abbrev S1x1x2048 : Shape := ⟨3, ![1, 1, 2048]⟩
abbrev S1x512x2048 : Shape := ⟨3, ![1, 512, 2048]⟩
abbrev S1x1x512 : Shape := ⟨3, ![1, 1, 512]⟩
abbrev S256x512 : Shape := ⟨2, ![256, 512]⟩
abbrev S2048x512 : Shape := ⟨2, ![2048, 512]⟩
abbrev S1x2048 : Shape := ⟨2, ![1, 2048]⟩
abbrev S512x2048 : Shape := ⟨2, ![512, 2048]⟩
abbrev S1x512 : Shape := ⟨2, ![1, 512]⟩
abbrev S256x2048 : Shape := ⟨2, ![256, 2048]⟩
abbrev S256x64x512 : Shape := ⟨3, ![256, 64, 512]⟩

abbrev nBuf : Space → Nat
  | .hbm => 41
  | .vmem => 12
  | .smem => 2
  | _ => 0

abbrev bufTy : (tb : Table) → Fin (tcTables nBuf tb) → BufTy
  | .hbm, ⟨0, _⟩ => ⟨S64, .i32⟩
  | .hbm, ⟨1, _⟩ => ⟨S64x256x512, .f32⟩
  | .hbm, ⟨2, _⟩ => ⟨S64x2048x512, .f32⟩
  | .hbm, ⟨3, _⟩ => ⟨S64x2048, .f32⟩
  | .hbm, ⟨4, _⟩ => ⟨S64x512x2048, .f32⟩
  | .hbm, ⟨5, _⟩ => ⟨S64x512, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S64, .i32⟩
  | .hbm, ⟨23, _⟩ => ⟨S64x1, .i32⟩
  | .hbm, ⟨24, _⟩ => ⟨S1, .i32⟩
  | .hbm, ⟨25, _⟩ => ⟨S_, .i32⟩
  | .hbm, ⟨26, _⟩ => ⟨S64x1, .i32⟩
  | .hbm, ⟨27, _⟩ => ⟨S64x1, .i1⟩
  | .hbm, ⟨28, _⟩ => ⟨S1x1, .i32⟩
  | .hbm, ⟨29, _⟩ => ⟨S64x1, .i32⟩
  | .hbm, ⟨30, _⟩ => ⟨S64x1, .i1⟩
  | .hbm, ⟨31, _⟩ => ⟨S64x1, .i1⟩
  | .hbm, ⟨32, _⟩ => ⟨S_, .i1⟩
  | .hbm, ⟨33, _⟩ => ⟨S64, .i1⟩
  | .hbm, ⟨34, _⟩ => ⟨S64, .i32⟩
  | .hbm, ⟨35, _⟩ => ⟨S_, .i32⟩
  | .hbm, ⟨36, _⟩ => ⟨S64, .i32⟩
  | .hbm, ⟨37, _⟩ => ⟨S64x1x2048, .f32⟩
  | .hbm, ⟨38, _⟩ => ⟨S64x1x512, .f32⟩
  | .hbm, ⟨39, _⟩ => ⟨S64x256x512, .f32⟩
  | .hbm, ⟨40, _⟩ => ⟨S256x64x512, .f32⟩
  | .local _ .vmem, ⟨0, _⟩ => ⟨S1x256x512, .f32⟩
  | .local _ .vmem, ⟨1, _⟩ => ⟨S1x256x512, .f32⟩
  | .local _ .vmem, ⟨2, _⟩ => ⟨S1x2048x512, .f32⟩
  | .local _ .vmem, ⟨3, _⟩ => ⟨S1x2048x512, .f32⟩
  | .local _ .vmem, ⟨4, _⟩ => ⟨S1x1x2048, .f32⟩
  | .local _ .vmem, ⟨5, _⟩ => ⟨S1x1x2048, .f32⟩
  | .local _ .vmem, ⟨6, _⟩ => ⟨S1x512x2048, .f32⟩
  | .local _ .vmem, ⟨7, _⟩ => ⟨S1x512x2048, .f32⟩
  | .local _ .vmem, ⟨8, _⟩ => ⟨S1x1x512, .f32⟩
  | .local _ .vmem, ⟨9, _⟩ => ⟨S1x1x512, .f32⟩
  | .local _ .vmem, ⟨10, _⟩ => ⟨S1x256x512, .f32⟩
  | .local _ .vmem, ⟨11, _⟩ => ⟨S1x256x512, .f32⟩
  | .local _ .smem, ⟨0, _⟩ => ⟨S64, .i32⟩
  | .local _ .smem, ⟨1, _⟩ => ⟨S64, .i32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_call1_v0 : Ref sig .tc := ⟨.hbm, 14, rfl⟩
abbrev main_call1_v1_0 : Ref sig .tc := ⟨.hbm, 15, rfl⟩
abbrev main_call2_c : Ref sig .tc := ⟨.hbm, 16, rfl⟩
abbrev main_call2_v0 : Ref sig .tc := ⟨.hbm, 17, rfl⟩
abbrev main_call2_v1 : Ref sig .tc := ⟨.hbm, 18, rfl⟩
abbrev main_call2_c_0 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_call2_v5 : Ref sig .tc := ⟨.hbm, 23, rfl⟩
abbrev main_call2_c_1 : Ref sig .tc := ⟨.hbm, 24, rfl⟩
abbrev main_call2_c_2 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_v9 : Ref sig .tc := ⟨.hbm, 29, rfl⟩
abbrev main_call2_v10 : Ref sig .tc := ⟨.hbm, 30, rfl⟩
abbrev main_call2_v11 : Ref sig .tc := ⟨.hbm, 31, rfl⟩
abbrev main_call2_c_3 : Ref sig .tc := ⟨.hbm, 32, rfl⟩
abbrev main_call2_v12 : Ref sig .tc := ⟨.hbm, 33, rfl⟩
abbrev main_call2_v13 : Ref sig .tc := ⟨.hbm, 34, rfl⟩
abbrev main_call2_c_4 : Ref sig .tc := ⟨.hbm, 35, rfl⟩
abbrev main_call2_v14 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v1 : Ref sig .tc := ⟨.smem, 0, rfl⟩
abbrev main_v2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_v1.idx, main_v2.idx], fun | 0 => main_v1.names | 1 => main_v2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  h_S_ : 0 < S_.numel
  shapeCasts_S64x2048_S64x1x2048 : S64x2048.ShapeCasts S64x1x2048
  shapeCasts_S64x512_S64x1x512 : S64x512.ShapeCasts S64x1x512
  numel1_S1 : S1.numel = 1
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x2048_S256x2048 : S1x2048.Broadcasts S256x2048
  broadcasts_S1x512_S256x512 : S1x512.Broadcasts S256x512
  shapeCasts_S256x512_S1x256x512 : S256x512.ShapeCasts S1x256x512
  transposes_S64x256x512_S256x64x512_1_0_2 : S64x256x512.Transposes [1, 0, 2] S256x64x512
  gather_S64_S64x1_S64_n_0_n_n_0_1_1_wf : GatherDims.WF S64 S64x1 S64 [] [0] [] [0] [] 1 ![1]
  dot_S256x512_S2048x512_S256x2048_1_1_0_0_n_n_wf : DotDims.WF S256x512 S2048x512 S256x2048 [1] [1] [0] [0] [] []
  dot_S256x2048_S512x2048_S256x512_1_1_0_0_n_n_wf : DotDims.WF S256x2048 S512x2048 S256x512 [1] [1] [0] [0] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S64_S64x1_S64_n_0_n_n_0_1_1 : GatherDims S64 S64x1 S64 where
  offsetDims := []
  collapsedSliceDims := [0]
  operandBatchingDims := []
  startIndicesBatchingDims := []
  startIndexMap := [0]
  indexVectorDim := 1
  sliceSizes := ![1]
  wf := gather_S64_S64x1_S64_n_0_n_n_0_1_1_wf
def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf

abbrev spec0_0 : Pipeline.WinSpec sig grid0.rank :=
  Pipeline.WinSpec.ofSpec (Memref.whole main_arg1) S1x256x512.size reads0_0 false false 2 stage0_0 sem0_0 nbuf0_0 hstage0_0

abbrev spec0_1 : Pipeline.WinSpec sig grid0.rank :=
  Pipeline.WinSpec.ofSpec (Memref.whole main_arg2) S1x2048x512.size reads0_1 false false 2 stage0_1 sem0_1 nbuf0_1 hstage0_1

abbrev spec0_2 : Pipeline.WinSpec sig grid0.rank :=
  Pipeline.WinSpec.ofSpec (Memref.whole main_v3) S1x1x2048.size reads0_2 false false 2 stage0_2 sem0_2 nbuf0_2 hstage0_2

abbrev spec0_3 : Pipeline.WinSpec sig grid0.rank :=
  Pipeline.WinSpec.ofSpec (Memref.whole main_arg4) S1x512x2048.size reads0_3 false false 2 stage0_3 sem0_3 nbuf0_3 hstage0_3

abbrev spec0_4 : Pipeline.WinSpec sig grid0.rank :=
  Pipeline.WinSpec.ofSpec (Memref.whole main_v4) S1x1x512.size reads0_4 false false 2 stage0_4 sem0_4 nbuf0_4 hstage0_4

abbrev spec0_5 : Pipeline.WinSpec sig grid0.rank :=
  Pipeline.WinSpec.ofSpec (Memref.whole main_v5) S1x256x512.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 k0_off1_inb numel1_S1 pf | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 pf | 5 => hreads0_5 pf | ⟨_ + 6, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x256x512.size a ≤ S64x256x512.size a), EltTy.bits .f32 = 32 ∨ (Rect.block (s := S64x256x512) S1x256x512.size (cc0_transform_0 k0_off1_inb numel1_S1 pf i) h).WholeWords (EltTy.packing .f32)) ∧
  (∀ i : grid0.Coords, ∃ h : (∀ a, (cc0_transform_1 k0_off1_inb numel1_S1 pf i a + 1) * S1x2048x512.size a ≤ S64x2048x512.size a), EltTy.bits .f32 = 32 ∨ (Rect.block (s := S64x2048x512) S1x2048x512.size (cc0_transform_1 k0_off1_inb numel1_S1 pf i) h).WholeWords (EltTy.packing .f32)) ∧
  (∀ i : grid0.Coords, ∃ h : (∀ a, (cc0_transform_2 k0_off1_inb numel1_S1 pf i a + 1) * S1x1x2048.size a ≤ S64x1x2048.size a), EltTy.bits .f32 = 32 ∨ (Rect.block (s := S64x1x2048) S1x1x2048.size (cc0_transform_2 k0_off1_inb numel1_S1 pf i) h).WholeWords (EltTy.packing .f32)) ∧
  (∀ i : grid0.Coords, ∃ h : (∀ a, (cc0_transform_3 k0_off1_inb numel1_S1 pf i a + 1) * S1x512x2048.size a ≤ S64x512x2048.size a), EltTy.bits .f32 = 32 ∨ (Rect.block (s := S64x512x2048) S1x512x2048.size (cc0_transform_3 k0_off1_inb numel1_S1 pf i) h).WholeWords (EltTy.packing .f32)) ∧
  (∀ i : grid0.Coords, ∃ h : (∀ a, (cc0_transform_4 k0_off1_inb numel1_S1 pf i a + 1) * S1x1x512.size a ≤ S64x1x512.size a), EltTy.bits .f32 = 32 ∨ (Rect.block (s := S64x1x512) S1x1x512.size (cc0_transform_4 k0_off1_inb numel1_S1 pf i) h).WholeWords (EltTy.packing .f32)) ∧
  (∀ i : grid0.Coords, ∃ h : (∀ a, (cc0_transform_5 k0_off1_inb numel1_S1 pf i a + 1) * S1x256x512.size a ≤ S64x256x512.size a), EltTy.bits .f32 = 32 ∨ (Rect.block (s := S64x256x512) S1x256x512.size (cc0_transform_5 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2 i).elim fun h _ => h a | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2 i).elim fun _ h => h | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S64 : Shape := ⟨1, ![64]⟩
abbrev S64x256x512 : Shape := ⟨3, ![64, 256, 512]⟩
abbrev S64x2048x512 : Shape := ⟨3, ![64, 2048, 512]⟩
abbrev S64x2048 : Shape := ⟨2, ![64, 2048]⟩
abbrev S64x512x2048 : Shape := ⟨3, ![64, 512, 2048]⟩
abbrev S64x512 : Shape := ⟨2, ![64, 512]⟩
abbrev S_ : Shape := ⟨0, ![]⟩
abbrev S64x1 : Shape := ⟨2, ![64, 1]⟩
abbrev S64x256x2048 : Shape := ⟨3, ![64, 256, 2048]⟩
abbrev S64x1x2048 : Shape := ⟨3, ![64, 1, 2048]⟩
abbrev S64x1x512 : Shape := ⟨3, ![64, 1, 512]⟩
abbrev S256x64x512 : Shape := ⟨3, ![256, 64, 512]⟩

abbrev nBuf : Space → Nat
  | .hbm => 54
  | .vmem => 0
  | .smem => 0
  | _ => 0

abbrev bufTy : (tb : Table) → Fin (tcTables nBuf tb) → BufTy
  | .hbm, ⟨0, _⟩ => ⟨S64, .i32⟩
  | .hbm, ⟨1, _⟩ => ⟨S64x256x512, .f32⟩
  | .hbm, ⟨2, _⟩ => ⟨S64x2048x512, .f32⟩
  | .hbm, ⟨3, _⟩ => ⟨S64x2048, .f32⟩
  | .hbm, ⟨4, _⟩ => ⟨S64x512x2048, .f32⟩
  | .hbm, ⟨5, _⟩ => ⟨S64x512, .f32⟩
  | .hbm, ⟨6, _⟩ => ⟨S_, .i32⟩
  | .hbm, ⟨7, _⟩ => ⟨S64, .i32⟩
  | .hbm, ⟨8, _⟩ => ⟨S64, .i1⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64x1, .i32⟩
  | .hbm, ⟨14, _⟩ => ⟨S64x2048x512, .f32⟩
  | .hbm, ⟨15, _⟩ => ⟨S_, .i32⟩
  | .hbm, ⟨16, _⟩ => ⟨S64, .i32⟩
  | .hbm, ⟨17, _⟩ => ⟨S64, .i1⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S64, .i32⟩
  | .hbm, ⟨22, _⟩ => ⟨S64x1, .i32⟩
  | .hbm, ⟨23, _⟩ => ⟨S64x2048, .f32⟩
  | .hbm, ⟨24, _⟩ => ⟨S_, .i32⟩
  | .hbm, ⟨25, _⟩ => ⟨S64, .i32⟩
  | .hbm, ⟨26, _⟩ => ⟨S64, .i1⟩
  | .hbm, ⟨27, _⟩ => ⟨S_, .i32⟩
  | .hbm, ⟨28, _⟩ => ⟨S64, .i32⟩
  | .hbm, ⟨29, _⟩ => ⟨S64, .i32⟩
  | .hbm, ⟨30, _⟩ => ⟨S64, .i32⟩
  | .hbm, ⟨31, _⟩ => ⟨S64x1, .i32⟩
  | .hbm, ⟨32, _⟩ => ⟨S64x512x2048, .f32⟩
  | .hbm, ⟨33, _⟩ => ⟨S_, .i32⟩
  | .hbm, ⟨34, _⟩ => ⟨S64, .i32⟩
  | .hbm, ⟨35, _⟩ => ⟨S64, .i1⟩
  | .hbm, ⟨36, _⟩ => ⟨S_, .i32⟩
  | .hbm, ⟨37, _⟩ => ⟨S64, .i32⟩
  | .hbm, ⟨38, _⟩ => ⟨S64, .i32⟩
  | .hbm, ⟨39, _⟩ => ⟨S64, .i32⟩
  | .hbm, ⟨40, _⟩ => ⟨S64x1, .i32⟩
  | .hbm, ⟨41, _⟩ => ⟨S64x512, .f32⟩
  | .hbm, ⟨42, _⟩ => ⟨S64x256x2048, .f32⟩
  | .hbm, ⟨43, _⟩ => ⟨S64x1x2048, .f32⟩
  | .hbm, ⟨44, _⟩ => ⟨S64x256x2048, .f32⟩
  | .hbm, ⟨45, _⟩ => ⟨S64x256x2048, .f32⟩
  | .hbm, ⟨46, _⟩ => ⟨S_, .f32⟩
  | .hbm, ⟨47, _⟩ => ⟨S64x256x2048, .f32⟩
  | .hbm, ⟨48, _⟩ => ⟨S64x256x2048, .f32⟩
  | .hbm, ⟨49, _⟩ => ⟨S64x256x512, .f32⟩
  | .hbm, ⟨50, _⟩ => ⟨S64x1x512, .f32⟩
  | .hbm, ⟨51, _⟩ => ⟨S64x256x512, .f32⟩
  | .hbm, ⟨52, _⟩ => ⟨S64x256x512, .f32⟩
  | .hbm, ⟨53, _⟩ => ⟨S256x64x512, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_cst : Ref sig .tc := ⟨.hbm, 46, rfl⟩
abbrev main_call0_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S64x2048_S64x1x2048_0_2 : S64x2048.BroadcastsInDim S64x1x2048 (![0, 2] : Fin 2 → Fin S64x1x2048.rank)
  bcast_S64x1x2048_S64x256x2048_0_1_2 : S64x1x2048.BroadcastsInDim S64x256x2048 (![0, 1, 2] : Fin 3 → Fin S64x256x2048.rank)
  bcast_S_S64x256x2048 : S_.BroadcastsInDim S64x256x2048 (![] : Fin 0 → Fin S64x256x2048.rank)
  bcast_S64x512_S64x1x512_0_2 : S64x512.BroadcastsInDim S64x1x512 (![0, 2] : Fin 2 → Fin S64x1x512.rank)
  bcast_S64x1x512_S64x256x512_0_1_2 : S64x1x512.BroadcastsInDim S64x256x512 (![0, 1, 2] : Fin 3 → Fin S64x256x512.rank)
  transposes_S64x256x512_S256x64x512_1_0_2 : S64x256x512.Transposes [1, 0, 2] S256x64x512
  gather_S64x2048x512_S64x1_S64x2048x512_12_0_n_n_0_1_12048512_wf : GatherDims.WF S64x2048x512 S64x1 S64x2048x512 [1, 2] [0] [] [0] [] 1 ![1, 2048, 512]
  gather_S64x2048_S64x1_S64x2048_1_0_n_n_0_1_12048_wf : GatherDims.WF S64x2048 S64x1 S64x2048 [1] [0] [] [0] [] 1 ![1, 2048]
  gather_S64x512x2048_S64x1_S64x512x2048_12_0_n_n_0_1_15122048_wf : GatherDims.WF S64x512x2048 S64x1 S64x512x2048 [1, 2] [0] [] [0] [] 1 ![1, 512, 2048]
  gather_S64x512_S64x1_S64x512_1_0_n_n_0_1_1512_wf : GatherDims.WF S64x512 S64x1 S64x512 [1] [0] [] [0] [] 1 ![1, 512]
  dot_S64x256x512_S64x2048x512_S64x256x2048_2_2_1_1_0_0_wf : DotDims.WF S64x256x512 S64x2048x512 S64x256x2048 [2] [2] [1] [1] [0] [0]
  dot_S64x256x2048_S64x512x2048_S64x256x512_2_2_1_1_0_0_wf : DotDims.WF S64x256x2048 S64x512x2048 S64x256x512 [2] [2] [1] [1] [0] [0]

variable [Facts₀]

def gather_S64x2048x512_S64x1_S64x2048x512_12_0_n_n_0_1_12048512 : GatherDims S64x2048x512 S64x1 S64x2048x512 where
  offsetDims := [1, 2]
  collapsedSliceDims := [0]
  operandBatchingDims := []
  startIndicesBatchingDims := []
  startIndexMap := [0]
  indexVectorDim := 1
  sliceSizes := ![1, 2048, 512]
  wf := gather_S64x2048x512_S64x1_S64x2048x512_12_0_n_n_0_1_12048512_wf
def gather_S64x2048_S64x1_S64x2048_1_0_n_n_0_1_12048 : GatherDims S64x2048 S64x1 S64x2048 where
  offsetDims := [1]
  collapsedSliceDims := [0]
  operandBatchingDims := []
  startIndicesBatchingDims := []
  startIndexMap := [0]
  indexVectorDim := 1
  sliceSizes := ![1, 2048]
  wf := gather_S64x2048_S64x1_S64x2048_1_0_n_n_0_1_12048_wf
def gather_S64x512x2048_S64x1_S64x512x2048_12_0_n_n_0_1_15122048 : GatherDims S64x512x2048 S64x1 S64x512x2048 where
  offsetDims := [1, 2]
  collapsedSliceDims := [0]
  operandBatchingDims := []
  startIndicesBatchingDims := []
  startIndexMap := [0]
  indexVectorDim := 1
  sliceSizes := ![1, 512, 2048]
  wf := gather_S64x512x2048_S64x1_S64x512x2048_12_0_n_n_0_1_15122048_wf
def gather_S64x512_S64x1_S64x512_1_0_n_n_0_1_1512 : GatherDims S64x512 S64x1 S64x512 where
  offsetDims := [1]
  collapsedSliceDims := [0]
  operandBatchingDims := []
  startIndicesBatchingDims := []
  startIndexMap := [0]
  indexVectorDim := 1
  sliceSizes := ![1, 512]
  wf := gather_S64x512_S64x1_S64x512_1_0_n_n_0_1_1512_wf
def dot_S64x256x512_S64x2048x512_S64x256x2048_2_2_1_1_0_0 : DotDims S64x256x512 S64x2048x512 S64x256x2048 where
  lhsContracting := [2]
  rhsContracting := [2]
  lhsNonContracting := [1]
  rhsNonContracting := [1]
  lhsBatch := [0]
  rhsBatch := [0]
  wf := dot_S64x256x512_S64x2048x512_S64x256x2048_2_2_1_1_0_0_wf
def dot_S64x256x2048_S64x512x2048_S64x256x512_2_2_1_1_0_0 : DotDims S64x256x2048 S64x512x2048 S64x256x512 where
  lhsContracting := [2]
  rhsContracting := [2]
  lhsNonContracting := [1]
  rhsNonContracting := [1]
  lhsBatch := [0]
  rhsBatch := [0]
  wf := dot_S64x256x2048_S64x512x2048_S64x256x512_2_2_1_1_0_0_wf

class Facts : Prop extends Facts₀ where

variable [Facts]
-- ==== Proof.PreDecode.lean ====
/-
  The added conjuncts of the precondition read at one routing word: every entry of the integer input lies in
  [0, 64), so as a natural number it is below 64.
-/
import proofs.«410971_j6536940224713_3_alg».proof.Pre_finite_inputs
import Idealize.ShloMosaic.Lib.ReduceAll
import Idealize.ShloMosaic.Lib.ValueIdx
import Idealize.ShloMosaic.Lib.StableHlo.Predicate

noncomputable section

namespace Cert.Moe.PreDecode

open Idealize.ShloMosaic Idealize.ShloMosaic.ValueIdx Cert.Pre_finite_inputs

variable {F : FTy → Type} [FloatOps F]

/-- A 32-bit word that is at least 0 and below 64 when read signed is below 64 when read unsigned: a word with the
    top bit set reads negative, so the top bit is clear and both readings agree. -/
theorem toNat_lt_of_signed (w : BitVec 32) (h0 : (0#32 : BitVec 32).toInt ≤ w.toInt)
    (h1 : w.toInt < (64#32 : BitVec 32).toInt) : w.toNat < 64 := by
  have e0 : (0#32 : BitVec 32).toInt = 0 := by decide
  have e64 : (64#32 : BitVec 32).toInt = 64 := by decide
  rw [e0] at h0
  rw [e64] at h1
  have hw := w.isLt
  rw [BitVec.toInt_eq_toNat_cond] at h0 h1
  split at h0 <;> omega

/-- Where the precondition holds, each routing word is below 64 as a natural number. -/
theorem idx_lt_of_pre [Cert.Pre_finite_inputs.Facts] (a0 : IVec S64 32) (a1 : FVec F S64x256x512 .f32) (a2 : FVec F S64x2048x512 .f32)
    (a3 : FVec F S64x2048 .f32) (a4 : FVec F S64x512x2048 .f32) (a5 : FVec F S64x512 .f32)
    (h : Cert.Pre_finite_inputs.fn (F := F) a0 a1 a2 a3 a4 a5 = fun _ => 1#1) (s : Fin 64) : (a0 (ix1 s)).toNat < 64 := by
  -- the rank-0 shape has one index
  haveI : Subsingleton S_.Idx := ⟨fun a b => funext fun d => d.elim0⟩
  have e := congrFun h ValueIdx.ix0
  dsimp only [Cert.Pre_finite_inputs.fn, Cert.Pre_finite_inputs.fn_part1] at e
  -- the conjunction's last two conjuncts: all words ≥ 0 signed, all words < 64 signed
  obtain ⟨e', hlt⟩ := IntOp.andi_eq_one.1 e
  obtain ⟨-, hge⟩ := IntOp.andi_eq_one.1 e'
  have g0 := Host.reduce_andi_all _ _ _ _ _ hge (ix1 s)
  have g1 := Host.reduce_andi_all _ _ _ _ _ hlt (ix1 s)
  exact toNat_lt_of_signed _ (IntOp.cmpi_sge.1 g0) (IntOp.cmpi_slt.1 g1)

end Cert.Moe.PreDecode

end
-- ==== Proof.TablesIdeal.lean ====
/-
  The two prefetched tables as the region finds them, read off the launch memory: the first is the sorting
  permutation of the clamped routing words, the second the routing words taken along it.

  The host computes, before the region: the routing words clamped to [0, 63]; the argsort of the clamped words (the
  positions 0 … 63 carried through a stable sort by signed "less than"); and the take of the clamped words along the
  argsort, with a fill for positions out of range. The stable sort reads its operands through one permutation of the
  64 positions, so the first table is that permutation written as words. Every word of it lies in [0, 63], so in the
  take no position is moved, every range test passes, the gather's clamp is the identity, and the second table at
  `b` is the clamped word at the permutation's value at `b`. With every routing word already in [0, 64) the clamp is
  the identity too. Each index map of the region reads one word of one table and names the block (word, 0, 0) of an
  array of 64 blocks: inside the array since the word is below 64.
-/
import proofs.«410971_j6536940224713_3_alg».proof.Proof.Gen.KernelIdeal.Frame
import Idealize.ShloMosaic.Lib.SortFacts
import Idealize.ShloMosaic.Lib.ValueIdx
import Idealize.ShloMosaic.Lib.StableHlo.Predicate

set_option maxRecDepth 16384

noncomputable section

namespace Cert.KernelIdeal.Tables

open Cert.KernelIdeal Cert.KernelIdeal.Gen
open Idealize.ShloMosaic Idealize.ShloMosaic.TcCoe Idealize.ShloMosaic.ValueIdx Idealize.SL.Sem

variable {F : FTy → Type} [FloatOps F] (m : (ℓ : Loc nD τ sig) → Buf (Elt F) ℓ)

/-- The routing words as launched, on the program's one device. -/
abbrev routing : IVec S64 32 := m (((0 : Dev nD) : Thread nD τ).loc main_arg0)

/-! ## The host operations before the region, as functions of words -/

/-- The words clamped to [0, 63]: the maximum with 0, then the minimum with 63, both signed. -/
def clampW (r : IVec S64 32) : IVec S64 32 :=
  minsi (broadcastInDim S64 ![] bcast_S_S64 (constantI S_ 32 63#32))
    (maxsi (broadcastInDim S64 ![] bcast_S_S64 (constantI S_ 32 0#32)) r)

/-- The argsort of the words: the positions 0 … 63 carried through the stable sort of the words by signed "less than". -/
def argsortW (x : IVec S64 32) : IVec S64 32 :=
  (Host.sort2 S64 0 comparator_i32_i32_d0 x (iotaInDim S64 32 0)).2

/-- A negative position is moved up by 64. -/
def wrapW (p : IVec S64 32) : IVec S64 32 :=
  select (cmpi .slt p (broadcastInDim S64 ![] bcast_S_S64 (constantI S_ 32 0#32)))
    (addi p (broadcastInDim S64 ![] bcast_S_S64 (constantI S_ 32 64#32))) p

/-- The positions as a column of one-component start indices. -/
def colW (q : IVec S64 32) : IVec S64x1 32 := broadcastInDim S64x1 ![0] bcast_S64_S64x1_0 q

/-- Per row of the column: every component lies in [0, 63], signed. -/
def inRangeW (c : IVec S64x1 32) : IVec S64 1 :=
  Host.reduce IntOp.andi
    (andi (cmpi .sge c (broadcastInDim S64x1 ![] bcast_S_S64x1 (constantI S_ 32 0#32)))
      (cmpi .sle c (broadcastInDim S64x1 ![0, 1] bcast_S1x1_S64x1_0_1
        (broadcastInDim S1x1 ![1] bcast_S1_S1x1_1 (constantI S1 32 63#32)))))
    (constantI S_ 1 1#1) reducesTo_S64x1_S64_d1 h_S_

/-- The take of `x` along `p`, out-of-range positions filled: `x` at the (moved-up) position where that lies in
    [0, 63], the smallest word elsewhere. -/
def takeW (x p : IVec S64 32) : IVec S64 32 :=
  select (inRangeW (colW (wrapW p))) (Host.gather gather_S64_S64x1_S64_n_0_n_n_0_1_1 x (colW (wrapW p)))
    (broadcastInDim S64 ![] bcast_S_S64 (constantI S_ 32 2147483648#32))

/-! ## Words in [0, 64) -/

/-- A word below 64 as a natural reads the same signed. -/
theorem toInt_of_lt64 (w : BitVec 32) (h : w.toNat < 64) : w.toInt = (w.toNat : Int) :=
  BitVec.toInt_eq_toNat_of_lt (by omega)

/-- Clamping such a word to [0, 63] leaves it. -/
theorem clamp_word (w : BitVec 32) (h : w.toNat < 64) : IntOp.minsi 63#32 (IntOp.maxsi 0#32 w) = w := by
  have hw := toInt_of_lt64 w h
  have h0 : (0#32 : BitVec 32).toInt = 0 := by decide
  have h63 : (63#32 : BitVec 32).toInt = 63 := by decide
  have e1 : ¬ (w.slt 0#32 = true) := by rw [BitVec.slt_iff_toInt_lt, hw, h0]; omega
  have e2 : ¬ ((63#32 : BitVec 32).slt w = true) := by rw [BitVec.slt_iff_toInt_lt, hw, h63]; omega
  show (if (63#32 : BitVec 32).slt (if w.slt 0#32 then 0#32 else w) then 63#32 else (if w.slt 0#32 then 0#32 else w)) = w
  rw [if_neg e1, if_neg e2]

/-- Such a word is not negative: the move up by 64 leaves it. -/
theorem wrap_word (w : BitVec 32) (h : w.toNat < 64) :
    Scalar.select (IntOp.cmpi .slt w 0#32) (IntOp.addi w 64#32) w = w := by
  have hw := toInt_of_lt64 w h
  have h0 : (0#32 : BitVec 32).toInt = 0 := by decide
  have e : IntOp.cmpi .slt w 0#32 = 0#1 := eq_zero_of_ne_one fun h1 => by
    rw [IntOp.cmpi_slt, hw, h0] at h1; omega
  rw [e, select_zero]

/-- Such a word passes the range test. -/
theorem inRange_word (w : BitVec 32) (h : w.toNat < 64) :
    IntOp.andi (IntOp.cmpi .sge w 0#32) (IntOp.cmpi .sle w 63#32) = 1#1 := by
  have hw := toInt_of_lt64 w h
  have h0 : (0#32 : BitVec 32).toInt = 0 := by decide
  have h63 : (63#32 : BitVec 32).toInt = 63 := by decide
  refine IntOp.andi_eq_one.2 ⟨IntOp.cmpi_sge.2 ?_, IntOp.cmpi_sle.2 ?_⟩
  · rw [hw, h0]; omega
  · rw [hw, h63]; omega

/-! ## The operations read at an index -/

theorem clampW_apply (r : IVec S64 32) (j : S64.Idx) : clampW r j = IntOp.minsi 63#32 (IntOp.maxsi 0#32 (r j)) := rfl

theorem wrapW_apply (p : IVec S64 32) (j : S64.Idx) :
    wrapW p j = Scalar.select (IntOp.cmpi .slt (p j) 0#32) (IntOp.addi (p j) 64#32) (p j) := rfl

/-- The column at row `i 0` holds the position at `i 0`. -/
theorem colW_apply (q : IVec S64 32) (i : S64x1.Idx) : colW q i = q (ix1 (n := 64) (i 0)) := by
  unfold colW broadcastInDim
  refine congrArg q (funext fun a => ?_)
  obtain rfl : a = 0 := Subsingleton.elim _ _
  rfl

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- With every component in range the test is 1 at every row. -/
theorem inRangeW_apply (c : IVec S64x1 32) (hc : ∀ i, (c i).toNat < 64) (j : S64.Idx) : inRangeW c j = 1#1 := by
  unfold inRangeW
  rw [Host.reduce_eq_foldl]
  exact foldl_andi_one _ _ fun i _ => inRange_word (c i) (hc i)

/-- The gather at row `b`: the operand at the row's one-component start index, read signed and clamped into [0, 63]. -/
theorem gather_apply {α : Type} (x : S64.Idx → α) (idx : IVec S64x1 32) (b k : Fin 64)
    (hk : min (idx (ix2 b (0 : Fin 1))).toInt.toNat 63 = k.val) :
    Host.gather gather_S64_S64x1_S64_n_0_n_n_0_1_1 x idx (ix1 b) = x (ix1 k) := by
  unfold Host.gather
  refine congrArg x (funext fun a => ?_)
  obtain rfl : a = 0 := Subsingleton.elim _ _
  refine Fin.ext ?_
  show gather_S64_S64x1_S64_n_0_n_n_0_1_1.start (ix1 b) idx 0 + gather_S64_S64x1_S64_n_0_n_n_0_1_1.batchCoord (ix1 b) 0
      + gather_S64_S64x1_S64_n_0_n_n_0_1_1.offCoord (ix1 b) 0 = k.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S64_S64x1_S64_n_0_n_n_0_1_1.startIndexMap from List.mem_singleton.mpr rfl)]
  have hsi : gather_S64_S64x1_S64_n_0_n_n_0_1_1.siIdx (ix1 b)
      ⟨List.idxOf (0 : Fin 1) gather_S64_S64x1_S64_n_0_n_n_0_1_1.startIndexMap,
        List.idxOf_lt_length_iff.2 (List.mem_singleton.mpr rfl)⟩ = ix2 b (0 : Fin 1) := by
    funext c; refine Fin.ext ?_
    match c with
    | ⟨0, _⟩ => rfl
    | ⟨1, _⟩ => rfl
  rw [hsi]
  exact hk

/-- The take at row `b` along positions all below 64: the operand at the position. -/
theorem takeW_apply (x p : IVec S64 32) (hp : ∀ b : Fin 64, (p (ix1 b)).toNat < 64) (b k : Fin 64)
    (hk : (p (ix1 b)).toNat = k.val) : takeW x p (ix1 b) = x (ix1 k) := by
  have hw : ∀ j : S64.Idx, wrapW p j = p j := fun j => by
    rw [wrapW_apply]; exact wrap_word _ (by rw [eq_ix1 j]; exact hp _)
  have hc : ∀ i : S64x1.Idx, colW (wrapW p) i = p (ix1 (n := 64) (i 0)) := fun i => (colW_apply _ i).trans (hw _)
  unfold takeW
  rw [select_apply, inRangeW_apply _ (fun i => by rw [hc]; exact hp _), select_one]
  refine gather_apply _ _ b k ?_
  rw [hc]
  show min (p (ix1 b)).toInt.toNat 63 = k.val
  have := hp b
  rw [toInt_of_lt64 _ this, Int.toNat_natCast, hk]
  have := k.isLt
  omega

/-! ## The sort -/

/-- The stable sorting permutation of the positions of a rank-1 table of words by signed "less than" of the words: its
    value at `k` is the position whose word lands at `k`. -/
def sortPerm {n : Nat} (x : IVec ⟨1, ![n]⟩ 32) : Fin n → Fin n :=
  sortedFrom fun k k' =>
    comparator_i32_i32_d0 (x (Shape.Idx.ofFin k), iotaInDim ⟨1, ![n]⟩ 32 0 (Shape.Idx.ofFin k))
      (x (Shape.Idx.ofFin k'), iotaInDim ⟨1, ![n]⟩ 32 0 (Shape.Idx.ofFin k')) == 1#1

/-- It is a permutation. -/
theorem sortPerm_bijective {n : Nat} (x : IVec ⟨1, ![n]⟩ 32) : Function.Bijective (sortPerm x) :=
  ⟨sortedFrom_injective _, sortedFrom_surjective _⟩

/-- The positions carried through the sort: at `j` the sorting permutation's value, as a word. -/
theorem sort2_iota_apply {n : Nat} (x : IVec ⟨1, ![n]⟩ 32) (j : (⟨1, ![n]⟩ : Shape).Idx) :
    (Host.sort2 ⟨1, ![n]⟩ 0 comparator_i32_i32_d0 x (iotaInDim ⟨1, ![n]⟩ 32 0)).2 j
      = BitVec.ofNat 32 (sortPerm x (j 0)).val := by
  have hal : ∀ k : Fin ((⟨1, ![n]⟩ : Shape).size ⟨0, Nat.one_pos⟩),
      j.along (⟨0, Nat.one_pos⟩ : Fin (⟨1, ![n]⟩ : Shape).rank) k = Shape.Idx.ofFin (n := n) k :=
    fun k => Shape.Idx.along_rank1 j k
  unfold Host.sort2
  rw [dif_pos (show 0 < (⟨1, ![n]⟩ : Shape).rank from Nat.one_pos)]
  simp only [hal]
  rfl

/-- The argsort at position `b`. -/
theorem argsortW_apply (x : IVec S64 32) (b : Fin 64) : argsortW x (ix1 b) = BitVec.ofNat 32 (sortPerm x b).val :=
  sort2_iota_apply x (ix1 b)

attribute [irreducible] sortPerm

/-! ## The tables' contents read off the launch memory, stretch by stretch of host operations -/

/-- The contents at the region's entry: the five stretches of host operations one after the other. -/
theorem V0_stages (c : Dev nD) : V0 m c = StableHlo.after hostOps0_4 (StableHlo.after hostOps0_3 (StableHlo.after hostOps0_2
    (StableHlo.after hostOps0_1 (StableHlo.after hostOps0 (fun b => m (c, b)))))) := by
  show StableHlo.after (List.flatten [hostOps0, hostOps0_1, hostOps0_2, hostOps0_3, hostOps0_4]) _ = _
  simp only [List.flatten_cons, List.flatten_nil, List.append_nil, StableHlo.after_append]

/-- After the constants and the clip, the clamped words stand where the sort and the take read them. -/
theorem stage1_v0 (W : Valuation τ sig (Elt F)) :
    (StableHlo.after hostOps0_1 (StableHlo.after hostOps0 W) (Proc.devRef .tc main_v0) : IVec S64 32)
      = clampW (W (Proc.devRef .tc main_arg0)) := by
  simp only [hostOps0, hostOps0_1]
  after_results
  rfl

/-- The sort writes its second result from the words it reads … -/
theorem stage2_v1 (W : Valuation τ sig (Elt F)) :
    (StableHlo.after hostOps0_2 W (Proc.devRef .tc main_v1) : IVec S64 32) = argsortW (W (Proc.devRef .tc main_v0)) := by
  simp only [hostOps0_2]
  after_results
  rfl
/-- … and leaves those words in place. -/
theorem stage2_v0 (W : Valuation τ sig (Elt F)) :
    StableHlo.after hostOps0_2 W (Proc.devRef .tc main_v0) = W (Proc.devRef .tc main_v0) := by
  simp only [hostOps0_2]
  after_results

/-- The take writes its result from the clamped words and the sort's second result … -/
theorem stage3_v2 (W : Valuation τ sig (Elt F)) :
    (StableHlo.after hostOps0_3 W (Proc.devRef .tc main_v2) : IVec S64 32)
      = takeW (W (Proc.devRef .tc main_v0)) (W (Proc.devRef .tc main_v1)) := by
  simp only [hostOps0_3]
  after_results_simp
  rfl
/-- … and leaves the sort's second result in place. -/
theorem stage3_v1 (W : Valuation τ sig (Elt F)) :
    StableHlo.after hostOps0_3 W (Proc.devRef .tc main_v1) = W (Proc.devRef .tc main_v1) := by
  simp only [hostOps0_3]
  after_results

/-- The two reshapes write neither table. -/
theorem stage4_v1 (W : Valuation τ sig (Elt F)) :
    StableHlo.after hostOps0_4 W (Proc.devRef .tc main_v1) = W (Proc.devRef .tc main_v1) := by
  simp only [hostOps0_4]
  after_results
theorem stage4_v2 (W : Valuation τ sig (Elt F)) :
    StableHlo.after hostOps0_4 W (Proc.devRef .tc main_v2) = W (Proc.devRef .tc main_v2) := by
  simp only [hostOps0_4]
  after_results

/-- The first table is the argsort of the clamped routing words. -/
theorem tbl0_eq : (tbl m 0 : IVec S64 32) = argsortW (clampW (routing m)) := by
  refine (congrFun (V0_stages m 0) (Proc.devRef .tc main_v1)).trans ?_
  rw [stage4_v1, stage3_v1, stage2_v1, stage1_v0]

/-- The second table is the take of the clamped routing words along the first. -/
theorem tbl1_eq : (tbl m 1 : IVec S64 32) = takeW (clampW (routing m)) (argsortW (clampW (routing m))) := by
  refine (congrFun (V0_stages m 0) (Proc.devRef .tc main_v2)).trans ?_
  rw [stage4_v2, stage3_v2, stage2_v1, stage2_v0, stage1_v0]

/-! ## The two tables -/

/-- A position below 64 as a word reads that position. -/
theorem toNat_ofNat_fin (k : Fin 64) : (BitVec.ofNat 32 k.val).toNat = k.val := by
  rw [BitVec.toNat_ofNat]
  have := k.isLt
  omega

/-- With every routing word in range, the first table is a permutation `σ` of the 64 samples and the second holds
    the routing word of sample `σ b` at position `b`. -/
theorem exists_perm (hin : ∀ s : Fin 64, (routing m (ix1 s)).toNat < 64) :
    ∃ σ : Fin 64 → Fin 64, Function.Bijective σ
      ∧ (∀ b : Fin 64, (tbl m 0 (ix1 b)).toNat = (σ b).val)
      ∧ (∀ b : Fin 64, (tbl m 1 (ix1 b)).toNat = (routing m (ix1 (σ b))).toNat) := by
  -- in range, the clamp is the identity
  have hX : ∀ s : Fin 64, clampW (routing m) (ix1 s) = routing m (ix1 s) := fun s => by
    rw [clampW_apply]; exact clamp_word _ (hin s)
  -- the sorted positions, as naturals
  have hP : ∀ b : Fin 64, (argsortW (clampW (routing m)) (ix1 b)).toNat = (sortPerm (clampW (routing m)) b).val :=
    fun b => by rw [argsortW_apply]; exact toNat_ofNat_fin _
  refine ⟨sortPerm (clampW (routing m)), sortPerm_bijective _, fun b => ?_, fun b => ?_⟩
  · exact (congrArg BitVec.toNat (congrFun (tbl0_eq m) (ix1 b))).trans (hP b)
  · refine (congrArg BitVec.toNat (congrFun (tbl1_eq m) (ix1 b))).trans ?_
    rw [takeW_apply _ _ (fun b' => by rw [hP]; exact (sortPerm (clampW (routing m)) b').isLt) b _ (hP b), hX]

/-! ## The pipeline's side condition -/

/-- Each index map reads one word of a table and names block (word, 0, 0): whatever the tables hold. -/
theorem transform_0_eq (h1 : ∀ i : grid0.Coords, ∀ a, (k0_off1 i) a + S1.size a ≤ S64.size a) (h2 : S1.numel = 1)
    (pf : pre0.Contents (Elt F)) (i : grid0.Coords) :
    ∃ y : S64.Idx, cc0_transform_0 h1 h2 pf i = ![((pf 0 : IVec S64 32) y).toNat, 0, 0] := ⟨_, rfl⟩
theorem transform_1_eq (h1 : ∀ i : grid0.Coords, ∀ a, (k0_off1 i) a + S1.size a ≤ S64.size a) (h2 : S1.numel = 1)
    (pf : pre0.Contents (Elt F)) (i : grid0.Coords) :
    ∃ y : S64.Idx, cc0_transform_1 h1 h2 pf i = ![((pf 1 : IVec S64 32) y).toNat, 0, 0] := ⟨_, rfl⟩
theorem transform_2_eq (h1 : ∀ i : grid0.Coords, ∀ a, (k0_off1 i) a + S1.size a ≤ S64.size a) (h2 : S1.numel = 1)
    (pf : pre0.Contents (Elt F)) (i : grid0.Coords) :
    ∃ y : S64.Idx, cc0_transform_2 h1 h2 pf i = ![((pf 1 : IVec S64 32) y).toNat, 0, 0] := ⟨_, rfl⟩
theorem transform_3_eq (h1 : ∀ i : grid0.Coords, ∀ a, (k0_off1 i) a + S1.size a ≤ S64.size a) (h2 : S1.numel = 1)
    (pf : pre0.Contents (Elt F)) (i : grid0.Coords) :
    ∃ y : S64.Idx, cc0_transform_3 h1 h2 pf i = ![((pf 1 : IVec S64 32) y).toNat, 0, 0] := ⟨_, rfl⟩
theorem transform_4_eq (h1 : ∀ i : grid0.Coords, ∀ a, (k0_off1 i) a + S1.size a ≤ S64.size a) (h2 : S1.numel = 1)
    (pf : pre0.Contents (Elt F)) (i : grid0.Coords) :
    ∃ y : S64.Idx, cc0_transform_4 h1 h2 pf i = ![((pf 1 : IVec S64 32) y).toNat, 0, 0] := ⟨_, rfl⟩
theorem transform_5_eq (h1 : ∀ i : grid0.Coords, ∀ a, (k0_off1 i) a + S1.size a ≤ S64.size a) (h2 : S1.numel = 1)
    (pf : pre0.Contents (Elt F)) (i : grid0.Coords) :
    ∃ y : S64.Idx, cc0_transform_5 h1 h2 pf i = ![((pf 0 : IVec S64 32) y).toNat, 0, 0] := ⟨_, rfl⟩

/-- Every block a table names lies inside its array: the pipeline's side condition. -/
theorem ok (hin : ∀ s : Fin 64, (routing m (ix1 s)).toNat < 64) : Ok m := by
  obtain ⟨σ, -, h0, h1⟩ := exists_perm m hin
  -- every word of either table is below 64
  have hl0 : ∀ y : S64.Idx, ((tbl m 0 : IVec S64 32) y).toNat < 64 := fun y => by
    obtain ⟨b, rfl⟩ : ∃ b : Fin 64, y = ix1 b := ⟨y 0, eq_ix1 y⟩
    rw [h0]; exact (σ b).isLt
  have hl1 : ∀ y : S64.Idx, ((tbl m 1 : IVec S64 32) y).toNat < 64 := fun y => by
    obtain ⟨b, rfl⟩ : ∃ b : Fin 64, y = ix1 b := ⟨y 0, eq_ix1 y⟩
    rw [h1]; exact hin _
  refine ⟨fun i => ?_, fun i => ?_, fun i => ?_, fun i => ?_, fun i => ?_, fun i => ?_⟩
  · obtain ⟨y, e⟩ := transform_0_eq _ _ (tbl m) i
    refine ⟨fun a => ?_, Or.inl rfl⟩
    rw [e]
    have hw := hl0 y
    generalize (tbl m 0 : IVec S64 32) y = w at hw ⊢
    fin_cases a <;> simp [S1x256x512, S64x256x512] <;> omega
  · obtain ⟨y, e⟩ := transform_1_eq _ _ (tbl m) i
    refine ⟨fun a => ?_, Or.inl rfl⟩
    rw [e]
    have hw := hl1 y
    generalize (tbl m 1 : IVec S64 32) y = w at hw ⊢
    fin_cases a <;> simp [S1x2048x512, S64x2048x512] <;> omega
  · obtain ⟨y, e⟩ := transform_2_eq _ _ (tbl m) i
    refine ⟨fun a => ?_, Or.inl rfl⟩
    rw [e]
    have hw := hl1 y
    generalize (tbl m 1 : IVec S64 32) y = w at hw ⊢
    fin_cases a <;> simp [S1x1x2048, S64x1x2048] <;> omega
  · obtain ⟨y, e⟩ := transform_3_eq _ _ (tbl m) i
    refine ⟨fun a => ?_, Or.inl rfl⟩
    rw [e]
    have hw := hl1 y
    generalize (tbl m 1 : IVec S64 32) y = w at hw ⊢
    fin_cases a <;> simp [S1x512x2048, S64x512x2048] <;> omega
  · obtain ⟨y, e⟩ := transform_4_eq _ _ (tbl m) i
    refine ⟨fun a => ?_, Or.inl rfl⟩
    rw [e]
    have hw := hl1 y
    generalize (tbl m 1 : IVec S64 32) y = w at hw ⊢
    fin_cases a <;> simp [S1x1x512, S64x1x512] <;> omega
  · obtain ⟨y, e⟩ := transform_5_eq _ _ (tbl m) i
    refine ⟨fun a => ?_, Or.inl rfl⟩
    rw [e]
    have hw := hl0 y
    generalize (tbl m 0 : IVec S64 32) y = w at hw ⊢
    fin_cases a <;> simp [S1x256x512, S64x256x512] <;> omega

end Cert.KernelIdeal.Tables

end
-- ==== Proof.TablesBits.lean ====
/-
  The two prefetched tables as the region finds them, read off the launch memory: the first is the sorting
  permutation of the clamped routing words, the second the routing words taken along it.

  The host computes, before the region: the routing words clamped to [0, 63]; the argsort of the clamped words (the
  positions 0 … 63 carried through a stable sort by signed "less than"); and the take of the clamped words along the
  argsort, with a fill for positions out of range. The stable sort reads its operands through one permutation of the
  64 positions, so the first table is that permutation written as words. Every word of it lies in [0, 63], so in the
  take no position is moved, every range test passes, the gather's clamp is the identity, and the second table at
  `b` is the clamped word at the permutation's value at `b`. With every routing word already in [0, 64) the clamp is
  the identity too. Each index map of the region reads one word of one table and names the block (word, 0, 0) of an
  array of 64 blocks: inside the array since the word is below 64.
-/
import proofs.«410971_j6536940224713_3_alg».proof.Proof.Gen.Kernel.Frame
import Idealize.ShloMosaic.Lib.SortFacts
import Idealize.ShloMosaic.Lib.ValueIdx
import Idealize.ShloMosaic.Lib.StableHlo.Predicate

set_option maxRecDepth 16384

noncomputable section

namespace Cert.Kernel.Tables

open Cert.Kernel Cert.Kernel.Gen
open Idealize.ShloMosaic Idealize.ShloMosaic.TcCoe Idealize.ShloMosaic.ValueIdx Idealize.SL.Sem

variable {F : FTy → Type} [FloatOps F] (m : (ℓ : Loc nD τ sig) → Buf (Elt F) ℓ)

/-- The routing words as launched, on the program's one device. -/
abbrev routing : IVec S64 32 := m (((0 : Dev nD) : Thread nD τ).loc main_arg0)

/-! ## The host operations before the region, as functions of words -/

/-- The words clamped to [0, 63]: the maximum with 0, then the minimum with 63, both signed. -/
def clampW (r : IVec S64 32) : IVec S64 32 :=
  minsi (broadcastInDim S64 ![] bcast_S_S64 (constantI S_ 32 63#32))
    (maxsi (broadcastInDim S64 ![] bcast_S_S64 (constantI S_ 32 0#32)) r)

/-- The argsort of the words: the positions 0 … 63 carried through the stable sort of the words by signed "less than". -/
def argsortW (x : IVec S64 32) : IVec S64 32 :=
  (Host.sort2 S64 0 comparator_i32_i32_d0 x (iotaInDim S64 32 0)).2

/-- A negative position is moved up by 64. -/
def wrapW (p : IVec S64 32) : IVec S64 32 :=
  select (cmpi .slt p (broadcastInDim S64 ![] bcast_S_S64 (constantI S_ 32 0#32)))
    (addi p (broadcastInDim S64 ![] bcast_S_S64 (constantI S_ 32 64#32))) p

/-- The positions as a column of one-component start indices. -/
def colW (q : IVec S64 32) : IVec S64x1 32 := broadcastInDim S64x1 ![0] bcast_S64_S64x1_0 q

/-- Per row of the column: every component lies in [0, 63], signed. -/
def inRangeW (c : IVec S64x1 32) : IVec S64 1 :=
  Host.reduce IntOp.andi
    (andi (cmpi .sge c (broadcastInDim S64x1 ![] bcast_S_S64x1 (constantI S_ 32 0#32)))
      (cmpi .sle c (broadcastInDim S64x1 ![0, 1] bcast_S1x1_S64x1_0_1
        (broadcastInDim S1x1 ![1] bcast_S1_S1x1_1 (constantI S1 32 63#32)))))
    (constantI S_ 1 1#1) reducesTo_S64x1_S64_d1 h_S_

/-- The take of `x` along `p`, out-of-range positions filled: `x` at the (moved-up) position where that lies in
    [0, 63], the smallest word elsewhere. -/
def takeW (x p : IVec S64 32) : IVec S64 32 :=
  select (inRangeW (colW (wrapW p))) (Host.gather gather_S64_S64x1_S64_n_0_n_n_0_1_1 x (colW (wrapW p)))
    (broadcastInDim S64 ![] bcast_S_S64 (constantI S_ 32 2147483648#32))

/-! ## Words in [0, 64) -/

/-- A word below 64 as a natural reads the same signed. -/
theorem toInt_of_lt64 (w : BitVec 32) (h : w.toNat < 64) : w.toInt = (w.toNat : Int) :=
  BitVec.toInt_eq_toNat_of_lt (by omega)

/-- Clamping such a word to [0, 63] leaves it. -/
theorem clamp_word (w : BitVec 32) (h : w.toNat < 64) : IntOp.minsi 63#32 (IntOp.maxsi 0#32 w) = w := by
  have hw := toInt_of_lt64 w h
  have h0 : (0#32 : BitVec 32).toInt = 0 := by decide
  have h63 : (63#32 : BitVec 32).toInt = 63 := by decide
  have e1 : ¬ (w.slt 0#32 = true) := by rw [BitVec.slt_iff_toInt_lt, hw, h0]; omega
  have e2 : ¬ ((63#32 : BitVec 32).slt w = true) := by rw [BitVec.slt_iff_toInt_lt, hw, h63]; omega
  show (if (63#32 : BitVec 32).slt (if w.slt 0#32 then 0#32 else w) then 63#32 else (if w.slt 0#32 then 0#32 else w)) = w
  rw [if_neg e1, if_neg e2]

/-- Such a word is not negative: the move up by 64 leaves it. -/
theorem wrap_word (w : BitVec 32) (h : w.toNat < 64) :
    Scalar.select (IntOp.cmpi .slt w 0#32) (IntOp.addi w 64#32) w = w := by
  have hw := toInt_of_lt64 w h
  have h0 : (0#32 : BitVec 32).toInt = 0 := by decide
  have e : IntOp.cmpi .slt w 0#32 = 0#1 := eq_zero_of_ne_one fun h1 => by
    rw [IntOp.cmpi_slt, hw, h0] at h1; omega
  rw [e, select_zero]

/-- Such a word passes the range test. -/
theorem inRange_word (w : BitVec 32) (h : w.toNat < 64) :
    IntOp.andi (IntOp.cmpi .sge w 0#32) (IntOp.cmpi .sle w 63#32) = 1#1 := by
  have hw := toInt_of_lt64 w h
  have h0 : (0#32 : BitVec 32).toInt = 0 := by decide
  have h63 : (63#32 : BitVec 32).toInt = 63 := by decide
  refine IntOp.andi_eq_one.2 ⟨IntOp.cmpi_sge.2 ?_, IntOp.cmpi_sle.2 ?_⟩
  · rw [hw, h0]; omega
  · rw [hw, h63]; omega

/-! ## The operations read at an index -/

theorem clampW_apply (r : IVec S64 32) (j : S64.Idx) : clampW r j = IntOp.minsi 63#32 (IntOp.maxsi 0#32 (r j)) := rfl

theorem wrapW_apply (p : IVec S64 32) (j : S64.Idx) :
    wrapW p j = Scalar.select (IntOp.cmpi .slt (p j) 0#32) (IntOp.addi (p j) 64#32) (p j) := rfl

/-- The column at row `i 0` holds the position at `i 0`. -/
theorem colW_apply (q : IVec S64 32) (i : S64x1.Idx) : colW q i = q (ix1 (n := 64) (i 0)) := by
  unfold colW broadcastInDim
  refine congrArg q (funext fun a => ?_)
  obtain rfl : a = 0 := Subsingleton.elim _ _
  rfl

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- With every component in range the test is 1 at every row. -/
theorem inRangeW_apply (c : IVec S64x1 32) (hc : ∀ i, (c i).toNat < 64) (j : S64.Idx) : inRangeW c j = 1#1 := by
  unfold inRangeW
  rw [Host.reduce_eq_foldl]
  exact foldl_andi_one _ _ fun i _ => inRange_word (c i) (hc i)

/-- The gather at row `b`: the operand at the row's one-component start index, read signed and clamped into [0, 63]. -/
theorem gather_apply {α : Type} (x : S64.Idx → α) (idx : IVec S64x1 32) (b k : Fin 64)
    (hk : min (idx (ix2 b (0 : Fin 1))).toInt.toNat 63 = k.val) :
    Host.gather gather_S64_S64x1_S64_n_0_n_n_0_1_1 x idx (ix1 b) = x (ix1 k) := by
  unfold Host.gather
  refine congrArg x (funext fun a => ?_)
  obtain rfl : a = 0 := Subsingleton.elim _ _
  refine Fin.ext ?_
  show gather_S64_S64x1_S64_n_0_n_n_0_1_1.start (ix1 b) idx 0 + gather_S64_S64x1_S64_n_0_n_n_0_1_1.batchCoord (ix1 b) 0
      + gather_S64_S64x1_S64_n_0_n_n_0_1_1.offCoord (ix1 b) 0 = k.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S64_S64x1_S64_n_0_n_n_0_1_1.startIndexMap from List.mem_singleton.mpr rfl)]
  have hsi : gather_S64_S64x1_S64_n_0_n_n_0_1_1.siIdx (ix1 b)
      ⟨List.idxOf (0 : Fin 1) gather_S64_S64x1_S64_n_0_n_n_0_1_1.startIndexMap,
        List.idxOf_lt_length_iff.2 (List.mem_singleton.mpr rfl)⟩ = ix2 b (0 : Fin 1) := by
    funext c; refine Fin.ext ?_
    match c with
    | ⟨0, _⟩ => rfl
    | ⟨1, _⟩ => rfl
  rw [hsi]
  exact hk

/-- The take at row `b` along positions all below 64: the operand at the position. -/
theorem takeW_apply (x p : IVec S64 32) (hp : ∀ b : Fin 64, (p (ix1 b)).toNat < 64) (b k : Fin 64)
    (hk : (p (ix1 b)).toNat = k.val) : takeW x p (ix1 b) = x (ix1 k) := by
  have hw : ∀ j : S64.Idx, wrapW p j = p j := fun j => by
    rw [wrapW_apply]; exact wrap_word _ (by rw [eq_ix1 j]; exact hp _)
  have hc : ∀ i : S64x1.Idx, colW (wrapW p) i = p (ix1 (n := 64) (i 0)) := fun i => (colW_apply _ i).trans (hw _)
  unfold takeW
  rw [select_apply, inRangeW_apply _ (fun i => by rw [hc]; exact hp _), select_one]
  refine gather_apply _ _ b k ?_
  rw [hc]
  show min (p (ix1 b)).toInt.toNat 63 = k.val
  have := hp b
  rw [toInt_of_lt64 _ this, Int.toNat_natCast, hk]
  have := k.isLt
  omega

/-! ## The sort -/

/-- The stable sorting permutation of the positions of a rank-1 table of words by signed "less than" of the words: its
    value at `k` is the position whose word lands at `k`. -/
def sortPerm {n : Nat} (x : IVec ⟨1, ![n]⟩ 32) : Fin n → Fin n :=
  sortedFrom fun k k' =>
    comparator_i32_i32_d0 (x (Shape.Idx.ofFin k), iotaInDim ⟨1, ![n]⟩ 32 0 (Shape.Idx.ofFin k))
      (x (Shape.Idx.ofFin k'), iotaInDim ⟨1, ![n]⟩ 32 0 (Shape.Idx.ofFin k')) == 1#1

/-- It is a permutation. -/
theorem sortPerm_bijective {n : Nat} (x : IVec ⟨1, ![n]⟩ 32) : Function.Bijective (sortPerm x) :=
  ⟨sortedFrom_injective _, sortedFrom_surjective _⟩

/-- The positions carried through the sort: at `j` the sorting permutation's value, as a word. -/
theorem sort2_iota_apply {n : Nat} (x : IVec ⟨1, ![n]⟩ 32) (j : (⟨1, ![n]⟩ : Shape).Idx) :
    (Host.sort2 ⟨1, ![n]⟩ 0 comparator_i32_i32_d0 x (iotaInDim ⟨1, ![n]⟩ 32 0)).2 j
      = BitVec.ofNat 32 (sortPerm x (j 0)).val := by
  have hal : ∀ k : Fin ((⟨1, ![n]⟩ : Shape).size ⟨0, Nat.one_pos⟩),
      j.along (⟨0, Nat.one_pos⟩ : Fin (⟨1, ![n]⟩ : Shape).rank) k = Shape.Idx.ofFin (n := n) k :=
    fun k => Shape.Idx.along_rank1 j k
  unfold Host.sort2
  rw [dif_pos (show 0 < (⟨1, ![n]⟩ : Shape).rank from Nat.one_pos)]
  simp only [hal]
  rfl

/-- The argsort at position `b`. -/
theorem argsortW_apply (x : IVec S64 32) (b : Fin 64) : argsortW x (ix1 b) = BitVec.ofNat 32 (sortPerm x b).val :=
  sort2_iota_apply x (ix1 b)

attribute [irreducible] sortPerm

/-! ## The tables' contents read off the launch memory, stretch by stretch of host operations -/

/-- The contents at the region's entry: the five stretches of host operations one after the other. -/
theorem V0_stages (c : Dev nD) : V0 m c = StableHlo.after hostOps0_4 (StableHlo.after hostOps0_3 (StableHlo.after hostOps0_2
    (StableHlo.after hostOps0_1 (StableHlo.after hostOps0 (fun b => m (c, b)))))) := by
  show StableHlo.after (List.flatten [hostOps0, hostOps0_1, hostOps0_2, hostOps0_3, hostOps0_4]) _ = _
  simp only [List.flatten_cons, List.flatten_nil, List.append_nil, StableHlo.after_append]

/-- After the constants and the clip, the clamped words stand where the sort and the take read them. -/
theorem stage1_v0 (W : Valuation τ sig (Elt F)) :
    (StableHlo.after hostOps0_1 (StableHlo.after hostOps0 W) (Proc.devRef .tc main_v0) : IVec S64 32)
      = clampW (W (Proc.devRef .tc main_arg0)) := by
  simp only [hostOps0, hostOps0_1]
  after_results
  rfl

/-- The sort writes its second result from the words it reads … -/
theorem stage2_v1 (W : Valuation τ sig (Elt F)) :
    (StableHlo.after hostOps0_2 W (Proc.devRef .tc main_v1) : IVec S64 32) = argsortW (W (Proc.devRef .tc main_v0)) := by
  simp only [hostOps0_2]
  after_results
  rfl
/-- … and leaves those words in place. -/
theorem stage2_v0 (W : Valuation τ sig (Elt F)) :
    StableHlo.after hostOps0_2 W (Proc.devRef .tc main_v0) = W (Proc.devRef .tc main_v0) := by
  simp only [hostOps0_2]
  after_results

/-- The take writes its result from the clamped words and the sort's second result … -/
theorem stage3_v2 (W : Valuation τ sig (Elt F)) :
    (StableHlo.after hostOps0_3 W (Proc.devRef .tc main_v2) : IVec S64 32)
      = takeW (W (Proc.devRef .tc main_v0)) (W (Proc.devRef .tc main_v1)) := by
  simp only [hostOps0_3]
  after_results_simp
  rfl
/-- … and leaves the sort's second result in place. -/
theorem stage3_v1 (W : Valuation τ sig (Elt F)) :
    StableHlo.after hostOps0_3 W (Proc.devRef .tc main_v1) = W (Proc.devRef .tc main_v1) := by
  simp only [hostOps0_3]
  after_results

/-- The two reshapes write neither table. -/
theorem stage4_v1 (W : Valuation τ sig (Elt F)) :
    StableHlo.after hostOps0_4 W (Proc.devRef .tc main_v1) = W (Proc.devRef .tc main_v1) := by
  simp only [hostOps0_4]
  after_results
theorem stage4_v2 (W : Valuation τ sig (Elt F)) :
    StableHlo.after hostOps0_4 W (Proc.devRef .tc main_v2) = W (Proc.devRef .tc main_v2) := by
  simp only [hostOps0_4]
  after_results

/-- The first table is the argsort of the clamped routing words. -/
theorem tbl0_eq : (tbl m 0 : IVec S64 32) = argsortW (clampW (routing m)) := by
  refine (congrFun (V0_stages m 0) (Proc.devRef .tc main_v1)).trans ?_
  rw [stage4_v1, stage3_v1, stage2_v1, stage1_v0]

/-- The second table is the take of the clamped routing words along the first. -/
theorem tbl1_eq : (tbl m 1 : IVec S64 32) = takeW (clampW (routing m)) (argsortW (clampW (routing m))) := by
  refine (congrFun (V0_stages m 0) (Proc.devRef .tc main_v2)).trans ?_
  rw [stage4_v2, stage3_v2, stage2_v1, stage2_v0, stage1_v0]

/-! ## The two tables -/

/-- A position below 64 as a word reads that position. -/
theorem toNat_ofNat_fin (k : Fin 64) : (BitVec.ofNat 32 k.val).toNat = k.val := by
  rw [BitVec.toNat_ofNat]
  have := k.isLt
  omega

/-- With every routing word in range, the first table is a permutation `σ` of the 64 samples and the second holds
    the routing word of sample `σ b` at position `b`. -/
theorem exists_perm (hin : ∀ s : Fin 64, (routing m (ix1 s)).toNat < 64) :
    ∃ σ : Fin 64 → Fin 64, Function.Bijective σ
      ∧ (∀ b : Fin 64, (tbl m 0 (ix1 b)).toNat = (σ b).val)
      ∧ (∀ b : Fin 64, (tbl m 1 (ix1 b)).toNat = (routing m (ix1 (σ b))).toNat) := by
  -- in range, the clamp is the identity
  have hX : ∀ s : Fin 64, clampW (routing m) (ix1 s) = routing m (ix1 s) := fun s => by
    rw [clampW_apply]; exact clamp_word _ (hin s)
  -- the sorted positions, as naturals
  have hP : ∀ b : Fin 64, (argsortW (clampW (routing m)) (ix1 b)).toNat = (sortPerm (clampW (routing m)) b).val :=
    fun b => by rw [argsortW_apply]; exact toNat_ofNat_fin _
  refine ⟨sortPerm (clampW (routing m)), sortPerm_bijective _, fun b => ?_, fun b => ?_⟩
  · exact (congrArg BitVec.toNat (congrFun (tbl0_eq m) (ix1 b))).trans (hP b)
  · refine (congrArg BitVec.toNat (congrFun (tbl1_eq m) (ix1 b))).trans ?_
    rw [takeW_apply _ _ (fun b' => by rw [hP]; exact (sortPerm (clampW (routing m)) b').isLt) b _ (hP b), hX]

/-! ## The pipeline's side condition -/

/-- Each index map reads one word of a table and names block (word, 0, 0): whatever the tables hold. -/
theorem transform_0_eq (h1 : ∀ i : grid0.Coords, ∀ a, (k0_off1 i) a + S1.size a ≤ S64.size a) (h2 : S1.numel = 1)
    (pf : pre0.Contents (Elt F)) (i : grid0.Coords) :
    ∃ y : S64.Idx, cc0_transform_0 h1 h2 pf i = ![((pf 0 : IVec S64 32) y).toNat, 0, 0] := ⟨_, rfl⟩
theorem transform_1_eq (h1 : ∀ i : grid0.Coords, ∀ a, (k0_off1 i) a + S1.size a ≤ S64.size a) (h2 : S1.numel = 1)
    (pf : pre0.Contents (Elt F)) (i : grid0.Coords) :
    ∃ y : S64.Idx, cc0_transform_1 h1 h2 pf i = ![((pf 1 : IVec S64 32) y).toNat, 0, 0] := ⟨_, rfl⟩
theorem transform_2_eq (h1 : ∀ i : grid0.Coords, ∀ a, (k0_off1 i) a + S1.size a ≤ S64.size a) (h2 : S1.numel = 1)
    (pf : pre0.Contents (Elt F)) (i : grid0.Coords) :
    ∃ y : S64.Idx, cc0_transform_2 h1 h2 pf i = ![((pf 1 : IVec S64 32) y).toNat, 0, 0] := ⟨_, rfl⟩
theorem transform_3_eq (h1 : ∀ i : grid0.Coords, ∀ a, (k0_off1 i) a + S1.size a ≤ S64.size a) (h2 : S1.numel = 1)
    (pf : pre0.Contents (Elt F)) (i : grid0.Coords) :
    ∃ y : S64.Idx, cc0_transform_3 h1 h2 pf i = ![((pf 1 : IVec S64 32) y).toNat, 0, 0] := ⟨_, rfl⟩
theorem transform_4_eq (h1 : ∀ i : grid0.Coords, ∀ a, (k0_off1 i) a + S1.size a ≤ S64.size a) (h2 : S1.numel = 1)
    (pf : pre0.Contents (Elt F)) (i : grid0.Coords) :
    ∃ y : S64.Idx, cc0_transform_4 h1 h2 pf i = ![((pf 1 : IVec S64 32) y).toNat, 0, 0] := ⟨_, rfl⟩
theorem transform_5_eq (h1 : ∀ i : grid0.Coords, ∀ a, (k0_off1 i) a + S1.size a ≤ S64.size a) (h2 : S1.numel = 1)
    (pf : pre0.Contents (Elt F)) (i : grid0.Coords) :
    ∃ y : S64.Idx, cc0_transform_5 h1 h2 pf i = ![((pf 0 : IVec S64 32) y).toNat, 0, 0] := ⟨_, rfl⟩

/-- Every block a table names lies inside its array: the pipeline's side condition. -/
theorem ok (hin : ∀ s : Fin 64, (routing m (ix1 s)).toNat < 64) : Ok m := by
  obtain ⟨σ, -, h0, h1⟩ := exists_perm m hin
  -- every word of either table is below 64
  have hl0 : ∀ y : S64.Idx, ((tbl m 0 : IVec S64 32) y).toNat < 64 := fun y => by
    obtain ⟨b, rfl⟩ : ∃ b : Fin 64, y = ix1 b := ⟨y 0, eq_ix1 y⟩
    rw [h0]; exact (σ b).isLt
  have hl1 : ∀ y : S64.Idx, ((tbl m 1 : IVec S64 32) y).toNat < 64 := fun y => by
    obtain ⟨b, rfl⟩ : ∃ b : Fin 64, y = ix1 b := ⟨y 0, eq_ix1 y⟩
    rw [h1]; exact hin _
  refine ⟨fun i => ?_, fun i => ?_, fun i => ?_, fun i => ?_, fun i => ?_, fun i => ?_⟩
  · obtain ⟨y, e⟩ := transform_0_eq _ _ (tbl m) i
    refine ⟨fun a => ?_, Or.inl rfl⟩
    rw [e]
    have hw := hl0 y
    generalize (tbl m 0 : IVec S64 32) y = w at hw ⊢
    fin_cases a <;> simp [S1x256x512, S64x256x512] <;> omega
  · obtain ⟨y, e⟩ := transform_1_eq _ _ (tbl m) i
    refine ⟨fun a => ?_, Or.inl rfl⟩
    rw [e]
    have hw := hl1 y
    generalize (tbl m 1 : IVec S64 32) y = w at hw ⊢
    fin_cases a <;> simp [S1x2048x512, S64x2048x512] <;> omega
  · obtain ⟨y, e⟩ := transform_2_eq _ _ (tbl m) i
    refine ⟨fun a => ?_, Or.inl rfl⟩
    rw [e]
    have hw := hl1 y
    generalize (tbl m 1 : IVec S64 32) y = w at hw ⊢
    fin_cases a <;> simp [S1x1x2048, S64x1x2048] <;> omega
  · obtain ⟨y, e⟩ := transform_3_eq _ _ (tbl m) i
    refine ⟨fun a => ?_, Or.inl rfl⟩
    rw [e]
    have hw := hl1 y
    generalize (tbl m 1 : IVec S64 32) y = w at hw ⊢
    fin_cases a <;> simp [S1x512x2048, S64x512x2048] <;> omega
  · obtain ⟨y, e⟩ := transform_4_eq _ _ (tbl m) i
    refine ⟨fun a => ?_, Or.inl rfl⟩
    rw [e]
    have hw := hl1 y
    generalize (tbl m 1 : IVec S64 32) y = w at hw ⊢
    fin_cases a <;> simp [S1x1x512, S64x1x512] <;> omega
  · obtain ⟨y, e⟩ := transform_5_eq _ _ (tbl m) i
    refine ⟨fun a => ?_, Or.inl rfl⟩
    rw [e]
    have hw := hl0 y
    generalize (tbl m 0 : IVec S64 32) y = w at hw ⊢
    fin_cases a <;> simp [S1x256x512, S64x256x512] <;> omega

end Cert.Kernel.Tables

end
-- ==== Proof.KIndex.lean ====
/-
  The six windows' block indices, as functions of the two tables' contents.

  At grid point t every index map reads one table at position t and returns (word, 0, 0): windows 0 and 5 (the
  sample's tokens and the result) read the first table, windows 1 to 4 (one expert's weights and biases) the
  second.  Everything here is stated for arbitrary contents of the tables.
-/
import proofs.«410971_j6536940224713_3_alg».proof.Proof.Gen.KernelIdeal.Frame
import Idealize.ShloMosaic.Lib.ValueIdx

set_option maxRecDepth 16384

noncomputable section

namespace Cert.KernelIdeal.Index

open Cert.KernelIdeal Cert.KernelIdeal.Gen
open Idealize.ShloMosaic Idealize.ShloMosaic.TcCoe Idealize.ShloMosaic.ValueIdx Idealize.SL.Sem

variable {F : FTy → Type} [FloatOps F]

/-- A grid point as a position in the tables. -/
def pt (t : Fin grid0.N) : Fin 64 := ⟨t.val, lt_of_lt_of_eq t.isLt N_0⟩

/-- The grid has one axis: a point's coordinate is the point. -/
theorem coords_val : ∀ t : Fin grid0.N, ((grid0.coords t) 0).val = t.val := by decide +kernel

/-- The position at which the index maps read a table at grid coordinates i. -/
def wordIdx (i : grid0.Coords) : S64.Idx :=
  (Rect.unit (s := S64) (k0_off1 i) S1.size (k0_off1_inb i)).emb (Shape.Idx.first (numel1_S1.symm ▸ Nat.one_pos))

/-- It is the coordinate itself. -/
theorem wordIdx_eq (i : grid0.Coords) : wordIdx i = ix1 (⟨(i 0).val, (i 0).isLt⟩ : Fin 64) := by
  funext a
  apply Fin.ext
  match a with
  | ⟨0, _⟩ =>
    show k0_off1 i 0 + 1 * (Shape.Idx.first (numel1_S1.symm ▸ Nat.one_pos) (0 : Fin 1)).val = (i 0).val
    have h1 : (Shape.Idx.first (numel1_S1.symm ▸ Nat.one_pos : 0 < S1.numel) (0 : Fin 1)).val = 0 := by
      have := (Shape.Idx.first (numel1_S1.symm ▸ Nat.one_pos : 0 < S1.numel) (0 : Fin 1)).isLt
      have e : S1.size (0 : Fin 1) = 1 := by decide
      omega
    rw [h1, k0_off1_eq i]
    show (i 0).val + 1 * 0 = (i 0).val
    omega

/-- At a grid point it is the point. -/
theorem wordIdx_coords (t : Fin grid0.N) : wordIdx (grid0.coords t) = ix1 (pt t) := by
  rw [wordIdx_eq]
  exact congrArg ix1 (Fin.ext (coords_val t))

/-- Each index map is (the table's word, 0, 0). -/
theorem transform0_eq (pf : pre0.Contents (Elt F)) (i : grid0.Coords) :
    cc0_transform_0 k0_off1_inb numel1_S1 pf i = ![(pf 0 (wordIdx i)).toNat, 0, 0] := rfl
theorem transform1_eq (pf : pre0.Contents (Elt F)) (i : grid0.Coords) :
    cc0_transform_1 k0_off1_inb numel1_S1 pf i = ![(pf 1 (wordIdx i)).toNat, 0, 0] := rfl
theorem transform2_eq (pf : pre0.Contents (Elt F)) (i : grid0.Coords) :
    cc0_transform_2 k0_off1_inb numel1_S1 pf i = ![(pf 1 (wordIdx i)).toNat, 0, 0] := rfl
theorem transform3_eq (pf : pre0.Contents (Elt F)) (i : grid0.Coords) :
    cc0_transform_3 k0_off1_inb numel1_S1 pf i = ![(pf 1 (wordIdx i)).toNat, 0, 0] := rfl
theorem transform4_eq (pf : pre0.Contents (Elt F)) (i : grid0.Coords) :
    cc0_transform_4 k0_off1_inb numel1_S1 pf i = ![(pf 1 (wordIdx i)).toNat, 0, 0] := rfl
theorem transform5_eq (pf : pre0.Contents (Elt F)) (i : grid0.Coords) :
    cc0_transform_5 k0_off1_inb numel1_S1 pf i = ![(pf 0 (wordIdx i)).toNat, 0, 0] := rfl

/-- The windows' block indices at a point of the pipeline pinned at contents `a`. -/
theorem index0 (a : (pcfg0 (F := F)).Adm) (t : Fin (cfg0 a).N) : ((cfg0 a).win 0).index t = ![(a.1 0 (ix1 (pt t))).toNat, 0, 0] := by
  show cc0_transform_0 k0_off1_inb numel1_S1 a.1 (grid0.coords t) = _
  rw [transform0_eq, wordIdx_coords]
theorem index1 (a : (pcfg0 (F := F)).Adm) (t : Fin (cfg0 a).N) : ((cfg0 a).win 1).index t = ![(a.1 1 (ix1 (pt t))).toNat, 0, 0] := by
  show cc0_transform_1 k0_off1_inb numel1_S1 a.1 (grid0.coords t) = _
  rw [transform1_eq, wordIdx_coords]
theorem index2 (a : (pcfg0 (F := F)).Adm) (t : Fin (cfg0 a).N) : ((cfg0 a).win 2).index t = ![(a.1 1 (ix1 (pt t))).toNat, 0, 0] := by
  show cc0_transform_2 k0_off1_inb numel1_S1 a.1 (grid0.coords t) = _
  rw [transform2_eq, wordIdx_coords]
theorem index3 (a : (pcfg0 (F := F)).Adm) (t : Fin (cfg0 a).N) : ((cfg0 a).win 3).index t = ![(a.1 1 (ix1 (pt t))).toNat, 0, 0] := by
  show cc0_transform_3 k0_off1_inb numel1_S1 a.1 (grid0.coords t) = _
  rw [transform3_eq, wordIdx_coords]
theorem index4 (a : (pcfg0 (F := F)).Adm) (t : Fin (cfg0 a).N) : ((cfg0 a).win 4).index t = ![(a.1 1 (ix1 (pt t))).toNat, 0, 0] := by
  show cc0_transform_4 k0_off1_inb numel1_S1 a.1 (grid0.coords t) = _
  rw [transform4_eq, wordIdx_coords]
theorem index5 (a : (pcfg0 (F := F)).Adm) (t : Fin (cfg0 a).N) : ((cfg0 a).win 5).index t = ![(a.1 0 (ix1 (pt t))).toNat, 0, 0] := by
  show cc0_transform_5 k0_off1_inb numel1_S1 a.1 (grid0.coords t) = _
  rw [transform5_eq, wordIdx_coords]

end Cert.KernelIdeal.Index

end
-- ==== Proof.KBlocks.lean ====
/-
  A window's block at grid point t, read at (u, p, q), is its array at (w, p, q), where w is the word its index
  map reads from the table at position t: the block index is (w, 0, 0) and the block has extent 1 on the leading
  axis and the array's full extents on the other two.  Stated for any contents of the array and of the tables.
-/
import proofs.«410971_j6536940224713_3_alg».proof.Proof.KIndex
import Idealize.ShloMosaic.Lib.Pipeline.Value

set_option maxRecDepth 16384

noncomputable section

namespace Cert.KernelIdeal.Blocks

open Cert.KernelIdeal Cert.KernelIdeal.Gen Cert.KernelIdeal.Index
open Idealize.ShloMosaic Idealize.ShloMosaic.TcCoe Idealize.ShloMosaic.ValueIdx Idealize.SL.Sem
open Idealize.ShloMosaic.Pipeline (Dat Window)

variable {F : FTy → Type} [FloatOps F]

theorem read_blk0 (a : (pcfg0 (F := F)).Adm) (t : Fin (cfg0 a).N) (A : Vec F S64x256x512 .f32) (s : Fin 64)
    (hs : (a.1 0 (ix1 (pt t))).toNat = s.val) (u : Fin 1) (p : Fin 256) (q : Fin 512) :
    (((cfg0 a).win 0).blk t).view.read (Elt F) A (ix3 u p q) = A (ix3 s p q) := by
  show A ((((cfg0 a).win 0).blk t).view.emb (ix3 u p q)) = A (ix3 s p q)
  refine congrArg A (funext fun (b : Fin 3) => Fin.ext ?_)
  have hi := index0 a t
  match b with
  | ⟨0, h⟩ =>
    refine (Window.rect_emb_val ((cfg0 a).win 0) t (ix3 u p q) ⟨0, h⟩).trans ?_
    rw [hi, hs]; show s.val * 1 + u.val = s.val; omega
  | ⟨1, h⟩ =>
    refine (Window.rect_emb_val ((cfg0 a).win 0) t (ix3 u p q) ⟨1, h⟩).trans ?_
    rw [hi]; show 0 * 256 + p.val = p.val; omega
  | ⟨2, h⟩ =>
    refine (Window.rect_emb_val ((cfg0 a).win 0) t (ix3 u p q) ⟨2, h⟩).trans ?_
    rw [hi]; show 0 * 512 + q.val = q.val; omega

theorem read_blk1 (a : (pcfg0 (F := F)).Adm) (t : Fin (cfg0 a).N) (A : Vec F S64x2048x512 .f32) (s : Fin 64)
    (hs : (a.1 1 (ix1 (pt t))).toNat = s.val) (u : Fin 1) (p : Fin 2048) (q : Fin 512) :
    (((cfg0 a).win 1).blk t).view.read (Elt F) A (ix3 u p q) = A (ix3 s p q) := by
  show A ((((cfg0 a).win 1).blk t).view.emb (ix3 u p q)) = A (ix3 s p q)
  refine congrArg A (funext fun (b : Fin 3) => Fin.ext ?_)
  have hi := index1 a t
  match b with
  | ⟨0, h⟩ =>
    refine (Window.rect_emb_val ((cfg0 a).win 1) t (ix3 u p q) ⟨0, h⟩).trans ?_
    rw [hi, hs]; show s.val * 1 + u.val = s.val; omega
  | ⟨1, h⟩ =>
    refine (Window.rect_emb_val ((cfg0 a).win 1) t (ix3 u p q) ⟨1, h⟩).trans ?_
    rw [hi]; show 0 * 2048 + p.val = p.val; omega
  | ⟨2, h⟩ =>
    refine (Window.rect_emb_val ((cfg0 a).win 1) t (ix3 u p q) ⟨2, h⟩).trans ?_
    rw [hi]; show 0 * 512 + q.val = q.val; omega

theorem read_blk2 (a : (pcfg0 (F := F)).Adm) (t : Fin (cfg0 a).N) (A : Vec F S64x1x2048 .f32) (s : Fin 64)
    (hs : (a.1 1 (ix1 (pt t))).toNat = s.val) (u : Fin 1) (p : Fin 1) (q : Fin 2048) :
    (((cfg0 a).win 2).blk t).view.read (Elt F) A (ix3 u p q) = A (ix3 s p q) := by
  show A ((((cfg0 a).win 2).blk t).view.emb (ix3 u p q)) = A (ix3 s p q)
  refine congrArg A (funext fun (b : Fin 3) => Fin.ext ?_)
  have hi := index2 a t
  match b with
  | ⟨0, h⟩ =>
    refine (Window.rect_emb_val ((cfg0 a).win 2) t (ix3 u p q) ⟨0, h⟩).trans ?_
    rw [hi, hs]; show s.val * 1 + u.val = s.val; omega
  | ⟨1, h⟩ =>
    refine (Window.rect_emb_val ((cfg0 a).win 2) t (ix3 u p q) ⟨1, h⟩).trans ?_
    rw [hi]; show 0 * 1 + p.val = p.val; omega
  | ⟨2, h⟩ =>
    refine (Window.rect_emb_val ((cfg0 a).win 2) t (ix3 u p q) ⟨2, h⟩).trans ?_
    rw [hi]; show 0 * 2048 + q.val = q.val; omega

theorem read_blk3 (a : (pcfg0 (F := F)).Adm) (t : Fin (cfg0 a).N) (A : Vec F S64x512x2048 .f32) (s : Fin 64)
    (hs : (a.1 1 (ix1 (pt t))).toNat = s.val) (u : Fin 1) (p : Fin 512) (q : Fin 2048) :
    (((cfg0 a).win 3).blk t).view.read (Elt F) A (ix3 u p q) = A (ix3 s p q) := by
  show A ((((cfg0 a).win 3).blk t).view.emb (ix3 u p q)) = A (ix3 s p q)
  refine congrArg A (funext fun (b : Fin 3) => Fin.ext ?_)
  have hi := index3 a t
  match b with
  | ⟨0, h⟩ =>
    refine (Window.rect_emb_val ((cfg0 a).win 3) t (ix3 u p q) ⟨0, h⟩).trans ?_
    rw [hi, hs]; show s.val * 1 + u.val = s.val; omega
  | ⟨1, h⟩ =>
    refine (Window.rect_emb_val ((cfg0 a).win 3) t (ix3 u p q) ⟨1, h⟩).trans ?_
    rw [hi]; show 0 * 512 + p.val = p.val; omega
  | ⟨2, h⟩ =>
    refine (Window.rect_emb_val ((cfg0 a).win 3) t (ix3 u p q) ⟨2, h⟩).trans ?_
    rw [hi]; show 0 * 2048 + q.val = q.val; omega

theorem read_blk4 (a : (pcfg0 (F := F)).Adm) (t : Fin (cfg0 a).N) (A : Vec F S64x1x512 .f32) (s : Fin 64)
    (hs : (a.1 1 (ix1 (pt t))).toNat = s.val) (u : Fin 1) (p : Fin 1) (q : Fin 512) :
    (((cfg0 a).win 4).blk t).view.read (Elt F) A (ix3 u p q) = A (ix3 s p q) := by
  show A ((((cfg0 a).win 4).blk t).view.emb (ix3 u p q)) = A (ix3 s p q)
  refine congrArg A (funext fun (b : Fin 3) => Fin.ext ?_)
  have hi := index4 a t
  match b with
  | ⟨0, h⟩ =>
    refine (Window.rect_emb_val ((cfg0 a).win 4) t (ix3 u p q) ⟨0, h⟩).trans ?_
    rw [hi, hs]; show s.val * 1 + u.val = s.val; omega
  | ⟨1, h⟩ =>
    refine (Window.rect_emb_val ((cfg0 a).win 4) t (ix3 u p q) ⟨1, h⟩).trans ?_
    rw [hi]; show 0 * 1 + p.val = p.val; omega
  | ⟨2, h⟩ =>
    refine (Window.rect_emb_val ((cfg0 a).win 4) t (ix3 u p q) ⟨2, h⟩).trans ?_
    rw [hi]; show 0 * 512 + q.val = q.val; omega

theorem read_blk5 (a : (pcfg0 (F := F)).Adm) (t : Fin (cfg0 a).N) (A : Vec F S64x256x512 .f32) (s : Fin 64)
    (hs : (a.1 0 (ix1 (pt t))).toNat = s.val) (u : Fin 1) (p : Fin 256) (q : Fin 512) :
    (((cfg0 a).win 5).blk t).view.read (Elt F) A (ix3 u p q) = A (ix3 s p q) := by
  show A ((((cfg0 a).win 5).blk t).view.emb (ix3 u p q)) = A (ix3 s p q)
  refine congrArg A (funext fun (b : Fin 3) => Fin.ext ?_)
  have hi := index5 a t
  match b with
  | ⟨0, h⟩ =>
    refine (Window.rect_emb_val ((cfg0 a).win 5) t (ix3 u p q) ⟨0, h⟩).trans ?_
    rw [hi, hs]; show s.val * 1 + u.val = s.val; omega
  | ⟨1, h⟩ =>
    refine (Window.rect_emb_val ((cfg0 a).win 5) t (ix3 u p q) ⟨1, h⟩).trans ?_
    rw [hi]; show 0 * 256 + p.val = p.val; omega
  | ⟨2, h⟩ =>
    refine (Window.rect_emb_val ((cfg0 a).win 5) t (ix3 u p q) ⟨2, h⟩).trans ?_
    rw [hi]; show 0 * 512 + q.val = q.val; omega

end Cert.KernelIdeal.Blocks

end
-- ==== Proof.KPayload.lean ====
/-
  The body's arithmetic at one element of the output block.

  The body loads five blocks: the sample's tokens x0 [1, 256, 512], and one expert's first-layer weights x1
  [1, 2048, 512], first-layer bias x2 [1, 1, 2048], second-layer weights x3 [1, 512, 2048] and second-layer bias
  x4 [1, 1, 512].  Element (0, t, o) of what it stores is
      ∑ h, max (∑ d, x0[0,t,d] · x1[0,h,d] + x2[0,0,h]) 0 · x3[0,o,h]  +  x4[0,0,o] :
  the changes of float format are the identity on extended reals, each product of matrices into a zero
  accumulator is the sum over its one contracted axis, and the casts between [1, a, b] and [a, b] and the
  broadcast of a row only rename indices.
-/
import proofs.«410971_j6536940224713_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-! ## The first product: tokens against the first layer's weights, contracting the feature axis -/

theorem lhs_first_0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
  rfl
theorem lhs_first_1 (i : S256x2048.Idx) (q : dot_S256x512_S2048x512_S256x2048_1_1_0_0_n_n.contr.Idx) :
    (dot_S256x512_S2048x512_S256x2048_1_1_0_0_n_n.lhsIdx i q 1).val = (q ⟨0, by decide⟩).val :=
  dot_S256x512_S2048x512_S256x2048_1_1_0_0_n_n.lhsIdx_val_of_single rfl i q
theorem rhs_first_0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
  rfl
theorem rhs_first_1 (i : S256x2048.Idx) (q : dot_S256x512_S2048x512_S256x2048_1_1_0_0_n_n.contr.Idx) :
    (dot_S256x512_S2048x512_S256x2048_1_1_0_0_n_n.rhsIdx i q 1).val = (q ⟨0, by decide⟩).val :=
  dot_S256x512_S2048x512_S256x2048_1_1_0_0_n_n.rhsIdx_val_of_single rfl i q

/-- Row t of the tokens against row h of the weights. -/
theorem first_apply (l : FVec Ideal S256x512 .bf16) (r : FVec Ideal S2048x512 .bf16) (t : Fin 256) (h : Fin 2048) :
    matmul dot_S256x512_S2048x512_S256x2048_1_1_0_0_n_n none l r (constant S256x2048 .f32 0x00000000#32) (ix2 t h)
      = ∑ d : Fin 512, l (ix2 t d) * r (ix2 h d) := by
  refine (Ideal.matmul_constant_zero_apply dot_S256x512_S2048x512_S256x2048_1_1_0_0_n_n none l r (ix2 t h)).trans ?_
  rw [← Equiv.sum_comp (ValueIdx.contrEquiv1 dot_S256x512_S2048x512_S256x2048_1_1_0_0_n_n 512 rfl rfl).symm]
  refine Finset.sum_congr rfl fun k _ => ?_
  have hk := ValueIdx.contrEquiv1_symm_val dot_S256x512_S2048x512_S256x2048_1_1_0_0_n_n 512 rfl rfl k
  have el : dot_S256x512_S2048x512_S256x2048_1_1_0_0_n_n.lhsIdx (ix2 t h) ((ValueIdx.contrEquiv1 dot_S256x512_S2048x512_S256x2048_1_1_0_0_n_n 512 rfl rfl).symm k) = ix2 t k := funext fun a => Fin.ext (by
    match a with
    | ⟨0, _⟩ => exact lhs_first_0 _ _
    | ⟨1, _⟩ => exact (lhs_first_1 _ _).trans hk)
  have er : dot_S256x512_S2048x512_S256x2048_1_1_0_0_n_n.rhsIdx (ix2 t h) ((ValueIdx.contrEquiv1 dot_S256x512_S2048x512_S256x2048_1_1_0_0_n_n 512 rfl rfl).symm k) = ix2 h k := funext fun a => Fin.ext (by
    match a with
    | ⟨0, _⟩ => exact rhs_first_0 _ _
    | ⟨1, _⟩ => exact (rhs_first_1 _ _).trans hk)
  rw [el, er]

/-! ## The second product: hidden activations against the second layer's weights, contracting the hidden axis -/

theorem lhs_second_0 (i : S256x512.Idx) (q : dot_S256x2048_S512x2048_S256x512_1_1_0_0_n_n.contr.Idx) :
    (dot_S256x2048_S512x2048_S256x512_1_1_0_0_n_n.lhsIdx i q 0).val = (i 0).val := by
  unfold DotDims.lhsIdx
  rw [dif_neg (show ¬(0 : Fin S256x2048.rank) ∈ dot_S256x2048_S512x2048_S256x512_1_1_0_0_n_n.lhsBatch by decide), dif_pos (show (0 : Fin S256x2048.rank) ∈ dot_S256x2048_S512x2048_S256x512_1_1_0_0_n_n.lhsNonContracting by decide)]
  rfl
theorem lhs_second_1 (i : S256x512.Idx) (q : dot_S256x2048_S512x2048_S256x512_1_1_0_0_n_n.contr.Idx) :
    (dot_S256x2048_S512x2048_S256x512_1_1_0_0_n_n.lhsIdx i q 1).val = (q ⟨0, by decide⟩).val :=
  dot_S256x2048_S512x2048_S256x512_1_1_0_0_n_n.lhsIdx_val_of_single rfl i q
theorem rhs_second_0 (i : S256x512.Idx) (q : dot_S256x2048_S512x2048_S256x512_1_1_0_0_n_n.contr.Idx) :
    (dot_S256x2048_S512x2048_S256x512_1_1_0_0_n_n.rhsIdx i q 0).val = (i 1).val := by
  unfold DotDims.rhsIdx
  rw [dif_neg (show ¬(0 : Fin S512x2048.rank) ∈ dot_S256x2048_S512x2048_S256x512_1_1_0_0_n_n.rhsBatch by decide), dif_pos (show (0 : Fin S512x2048.rank) ∈ dot_S256x2048_S512x2048_S256x512_1_1_0_0_n_n.rhsNonContracting by decide)]
  rfl
theorem rhs_second_1 (i : S256x512.Idx) (q : dot_S256x2048_S512x2048_S256x512_1_1_0_0_n_n.contr.Idx) :
    (dot_S256x2048_S512x2048_S256x512_1_1_0_0_n_n.rhsIdx i q 1).val = (q ⟨0, by decide⟩).val :=
  dot_S256x2048_S512x2048_S256x512_1_1_0_0_n_n.rhsIdx_val_of_single rfl i q

/-- Row t of the activations against row o of the weights. -/
theorem second_apply (l : FVec Ideal S256x2048 .bf16) (r : FVec Ideal S512x2048 .bf16) (t : Fin 256) (o : Fin 512) :
    matmul dot_S256x2048_S512x2048_S256x512_1_1_0_0_n_n none l r (constant S256x512 .f32 0x00000000#32) (ix2 t o)
      = ∑ h : Fin 2048, l (ix2 t h) * r (ix2 o h) := by
  refine (Ideal.matmul_constant_zero_apply dot_S256x2048_S512x2048_S256x512_1_1_0_0_n_n none l r (ix2 t o)).trans ?_
  rw [← Equiv.sum_comp (ValueIdx.contrEquiv1 dot_S256x2048_S512x2048_S256x512_1_1_0_0_n_n 2048 rfl rfl).symm]
  refine Finset.sum_congr rfl fun k _ => ?_
  have hk := ValueIdx.contrEquiv1_symm_val dot_S256x2048_S512x2048_S256x512_1_1_0_0_n_n 2048 rfl rfl k
  have el : dot_S256x2048_S512x2048_S256x512_1_1_0_0_n_n.lhsIdx (ix2 t o) ((ValueIdx.contrEquiv1 dot_S256x2048_S512x2048_S256x512_1_1_0_0_n_n 2048 rfl rfl).symm k) = ix2 t k := funext fun a => Fin.ext (by
    match a with
    | ⟨0, _⟩ => exact lhs_second_0 _ _
    | ⟨1, _⟩ => exact (lhs_second_1 _ _).trans hk)
  have er : dot_S256x2048_S512x2048_S256x512_1_1_0_0_n_n.rhsIdx (ix2 t o) ((ValueIdx.contrEquiv1 dot_S256x2048_S512x2048_S256x512_1_1_0_0_n_n 2048 rfl rfl).symm k) = ix2 o k := funext fun a => Fin.ext (by
    match a with
    | ⟨0, _⟩ => exact rhs_second_0 _ _
    | ⟨1, _⟩ => exact (rhs_second_1 _ _).trans hk)
  rw [el, er]

/-! ## The stored value at an element -/

/-- The hidden activation of token t at unit h, from the loaded blocks. -/
def hidBlk (x0 : Vec Ideal S1x256x512 .f32) (x1 : Vec Ideal S1x2048x512 .f32) (x2 : Vec Ideal S1x1x2048 .f32) (t : Fin 256) (h : Fin 2048) : EReal :=
  max ((∑ d : Fin 512, x0 (ix3 (0 : Fin 1) t d) * x1 (ix3 (0 : Fin 1) h d)) + x2 (ix3 (0 : Fin 1) (0 : Fin 1) h)) (Ideal.ofBits .f32 0x00000000#32)

/-- Element (0, t, o) of the block the body stores. -/
theorem pay_apply (x0 : Vec Ideal S1x256x512 .f32) (x1 : Vec Ideal S1x2048x512 .f32) (x2 : Vec Ideal S1x1x2048 .f32)
    (x3 : Vec Ideal S1x512x2048 .f32) (x4 : Vec Ideal S1x1x512 .f32) (u : Fin 1) (t : Fin 256) (o : Fin 512) :
    k0_pay1 (F := Ideal) x0 x1 x2 x3 x4 (ix3 u t o)
      = (∑ h : Fin 2048, hidBlk x0 x1 x2 t h * x3 (ix3 (0 : Fin 1) o h)) + x4 (ix3 (0 : Fin 1) (0 : Fin 1) o) := by
  unfold k0_pay1
  rw [shapeCast_ab_1ab_apply, addf_apply, second_apply, broadcastTo_1b_ab_apply, shapeCast_1ab_ab_apply]
  refine congrArg (· + x4 (ix3 (0 : Fin 1) (0 : Fin 1) o)) (Finset.sum_congr rfl fun h _ => ?_)
  rw [truncf_apply, truncf_apply, maximumf_apply, addf_apply, first_apply, broadcastTo_1b_ab_apply,
    shapeCast_1ab_ab_apply, shapeCast_1ab_ab_apply, broadcast_apply]
  unfold hidBlk
  simp only [truncf_apply, shapeCast_1ab_ab_apply]
  rfl

end Cert.KernelIdeal.Payload

end
-- ==== Proof.Spec.lean ====
/-
  The function both programs compute, stated once over the argument arrays.

  There are 64 samples and 64 experts.  Sample `s` is routed to expert `e = r s`.  For token `t` of the sample,
    hidden unit h :  hid = max (∑ d, x[s,t,d] · W1[e,h,d] + b1[e,h]) 0
    output unit o :  out = ∑ h, hid · W2[e,o,h] + b2[e,o]
  and the result array is laid out [token, sample, output unit].

  The routing `r` is read off the integer input: with every entry in [0, 64) the expert of sample `s` is the
  entry itself; `route` writes it with a cap at 63 so that it is a total function into `Fin 64`.
-/
import Idealize.ShloMosaic.PureOps.Ideal
import Idealize.ShloMosaic.Lib.ValueIdx

noncomputable section

open scoped BigOperators

namespace Cert.Moe

open Idealize.ShloMosaic Idealize.ShloMosaic.ValueIdx

/-- The shapes of the six arguments and of the result. -/
abbrev SI : Shape := ⟨1, ![64]⟩
abbrev SX : Shape := ⟨3, ![64, 256, 512]⟩
abbrev SW1 : Shape := ⟨3, ![64, 2048, 512]⟩
abbrev SB1 : Shape := ⟨2, ![64, 2048]⟩
abbrev SW2 : Shape := ⟨3, ![64, 512, 2048]⟩
abbrev SB2 : Shape := ⟨2, ![64, 512]⟩
abbrev SY : Shape := ⟨3, ![64, 256, 512]⟩
abbrev SO : Shape := ⟨3, ![256, 64, 512]⟩

/-- The expert of sample `s`: the routing word read as a natural number, capped at the last expert. -/
def route (i : SI.Idx → BitVec 32) (s : Fin 64) : Fin 64 := ⟨min (i (ix1 s)).toNat 63, by omega⟩

/-- Where the routing word is in range the cap does nothing. -/
theorem route_val (i : SI.Idx → BitVec 32) (s : Fin 64) (h : (i (ix1 s)).toNat < 64) : (route i s).val = (i (ix1 s)).toNat := by
  show min (i (ix1 s)).toNat 63 = _
  omega

/-- The first layer at sample `s`, token `t`, hidden unit `h`, with expert `e`'s weights: a rectified affine map. -/
def hid (x : SX.Idx → EReal) (W1 : SW1.Idx → EReal) (b1 : SB1.Idx → EReal) (e s : Fin 64) (t : Fin 256) (h : Fin 2048) : EReal :=
  max ((∑ d : Fin 512, x (ix3 s t d) * W1 (ix3 e h d)) + b1 (ix2 e h)) (Ideal.ofBits .f32 0x00000000#32)

/-- The second layer at output unit `o`: an affine map of the hidden activations. -/
def out (x : SX.Idx → EReal) (W1 : SW1.Idx → EReal) (b1 : SB1.Idx → EReal) (W2 : SW2.Idx → EReal) (b2 : SB2.Idx → EReal)
    (e s : Fin 64) (t : Fin 256) (o : Fin 512) : EReal :=
  (∑ h : Fin 2048, hid x W1 b1 e s t h * W2 (ix3 e o h)) + b2 (ix2 e o)

/-- The per-sample result [sample, token, output unit] under routing `r`. -/
def Y (x : SX.Idx → EReal) (W1 : SW1.Idx → EReal) (b1 : SB1.Idx → EReal) (W2 : SW2.Idx → EReal) (b2 : SB2.Idx → EReal)
    (r : Fin 64 → Fin 64) : SY.Idx → EReal :=
  fun j => out x W1 b1 W2 b2 (r (j 0)) (j 0) (j 1) (j 2)

/-- The result [token, sample, output unit]: the per-sample result with its first two axes exchanged. -/
def G (x : SX.Idx → EReal) (W1 : SW1.Idx → EReal) (b1 : SB1.Idx → EReal) (W2 : SW2.Idx → EReal) (b2 : SB2.Idx → EReal)
    (r : Fin 64 → Fin 64) : SO.Idx → EReal :=
  fun j => out x W1 b1 W2 b2 (r (j 1)) (j 1) (j 0) (j 2)

end Cert.Moe

end
-- ==== Proof.KPoint.lean ====
/-
  The value the body stores at one grid point, as the specification's function of whole arrays.

  At point t the windows hand the body the blocks at (s, ·, ·) of the tokens and at (e, ·, ·) of the four
  parameter arrays, s and e the two tables' words at position t.  So element (u, p, q) of the stored block is
  the two-layer map of sample s with expert e at token p and output unit q.  The two bias arrays reach the
  region with a unit middle axis, [64, 1, n]; `sq` reads such an array as [64, n].
-/
import proofs.«410971_j6536940224713_3_alg».proof.Proof.KBlocks
import proofs.«410971_j6536940224713_3_alg».proof.Proof.KPayload
import proofs.«410971_j6536940224713_3_alg».proof.Proof.Spec

set_option maxRecDepth 16384

noncomputable section

open scoped BigOperators

namespace Cert.KernelIdeal.Point

open Cert.KernelIdeal Cert.KernelIdeal.Gen Cert.KernelIdeal.Index Cert.KernelIdeal.Blocks Cert.KernelIdeal.Payload
open Idealize.ShloMosaic Idealize.ShloMosaic.TcCoe Idealize.ShloMosaic.ValueIdx Idealize.SL.Sem
open Idealize.ShloMosaic.Pipeline (Dat Window)

/-- A [64, 1, n] array read as [64, n]. -/
def sq {n : Nat} (A : (⟨3, ![64, 1, n]⟩ : Shape).Idx → EReal) : (⟨2, ![64, n]⟩ : Shape).Idx → EReal :=
  fun j => A (ix3 (j 0) (0 : Fin 1) (j 1))

theorem sq_apply {n : Nat} (A : (⟨3, ![64, 1, n]⟩ : Shape).Idx → EReal) (e : Fin 64) (h : Fin n) :
    sq A (ix2 e h) = A (ix3 e (0 : Fin 1) h) := rfl

/-- The stored value at (u, p, q), from blocks known to be rows s and e of the arrays. -/
theorem value_of_rows (x0 : Vec Ideal S1x256x512 .f32) (x1 : Vec Ideal S1x2048x512 .f32) (x2 : Vec Ideal S1x1x2048 .f32)
    (x3 : Vec Ideal S1x512x2048 .f32) (x4 : Vec Ideal S1x1x512 .f32)
    (A0 : Vec Ideal S64x256x512 .f32) (A1 : Vec Ideal S64x2048x512 .f32) (A2 : Vec Ideal S64x1x2048 .f32)
    (A3 : Vec Ideal S64x512x2048 .f32) (A4 : Vec Ideal S64x1x512 .f32) (s e : Fin 64)
    (e0 : ∀ (p : Fin 256) (d : Fin 512), x0 (ix3 (0 : Fin 1) p d) = A0 (ix3 s p d))
    (e1 : ∀ (h : Fin 2048) (d : Fin 512), x1 (ix3 (0 : Fin 1) h d) = A1 (ix3 e h d))
    (e2 : ∀ (h : Fin 2048), x2 (ix3 (0 : Fin 1) (0 : Fin 1) h) = A2 (ix3 e (0 : Fin 1) h))
    (e3 : ∀ (o : Fin 512) (h : Fin 2048), x3 (ix3 (0 : Fin 1) o h) = A3 (ix3 e o h))
    (e4 : ∀ (o : Fin 512), x4 (ix3 (0 : Fin 1) (0 : Fin 1) o) = A4 (ix3 e (0 : Fin 1) o))
    (u : Fin 1) (p : Fin 256) (q : Fin 512) :
    k0_pay1 (F := Ideal) x0 x1 x2 x3 x4 (ix3 u p q) = Cert.Moe.out A0 A1 (sq A2) A3 (sq A4) e s p q := by
  rw [pay_apply]
  unfold hidBlk
  simp only [e0, e1, e2, e3, e4]
  rfl

/-- Element (u, p, q) of the block stored at point t. -/
theorem point_value (a : (pcfg0 (F := Ideal)).Adm) (t : Fin (cfg0 a).N)
    (A0 : Vec Ideal S64x256x512 .f32) (A1 : Vec Ideal S64x2048x512 .f32) (A2 : Vec Ideal S64x1x2048 .f32)
    (A3 : Vec Ideal S64x512x2048 .f32) (A4 : Vec Ideal S64x1x512 .f32) (s e : Fin 64)
    (hs : (a.1 0 (ix1 (pt t))).toNat = s.val) (he : (a.1 1 (ix1 (pt t))).toNat = e.val)
    (u : Fin 1) (p : Fin 256) (q : Fin 512) :
    k0_pay1 (F := Ideal) ((((cfg0 a).win 0).blk t).view.read (Elt Ideal) A0) ((((cfg0 a).win 1).blk t).view.read (Elt Ideal) A1)
        ((((cfg0 a).win 2).blk t).view.read (Elt Ideal) A2) ((((cfg0 a).win 3).blk t).view.read (Elt Ideal) A3)
        ((((cfg0 a).win 4).blk t).view.read (Elt Ideal) A4) (ix3 u p q)
      = Cert.Moe.out A0 A1 (sq A2) A3 (sq A4) e s p q :=
  value_of_rows _ _ _ _ _ A0 A1 A2 A3 A4 s e
    (fun p d => read_blk0 a t A0 s hs 0 p d) (fun h d => read_blk1 a t A1 e he 0 h d) (fun h => read_blk2 a t A2 e he 0 0 h)
    (fun o h => read_blk3 a t A3 e he 0 o h) (fun o => read_blk4 a t A4 e he 0 0 o) u p q

end Cert.KernelIdeal.Point

end
-- ==== Proof.KPiece.lean ====
/-
  What the body leaves in the output window's staging buffer: its one store covers the whole block, so the buffer
  reads back as the stored value, a function of the five loaded blocks alone.
-/
import proofs.«410971_j6536940224713_3_alg».proof.Proof.Gen.KernelIdeal.Frame
import Idealize.ShloMosaic.Lib.Pipeline.Value

set_option maxRecDepth 16384

noncomputable section

namespace Cert.KernelIdeal.Piece

open Cert.KernelIdeal Cert.KernelIdeal.Gen
open Idealize.ShloMosaic Idealize.ShloMosaic.TcCoe Idealize.ShloMosaic.Tactic Idealize.SL.Sem

variable {F : FTy → Type} [FloatOps F]

theorem hz3 : (![0, 0, 0] : Fin 3 → Nat) = fun _ => 0 := by
  funext a; fin_cases a <;> rfl

/-- The output's staging buffer after the body holds the stored value of the loaded blocks. -/
theorem out_eq_pay (c : Dev nD) (i : grid0.Coords) (arg3 : Memref sig .tc .vmem S1x256x512 .f32) (harg3 : arg3.IsWhole) (arg4 : Memref sig .tc .vmem S1x2048x512 .f32) (harg4 : arg4.IsWhole) (arg5 : Memref sig .tc .vmem S1x1x2048 .f32) (harg5 : arg5.IsWhole) (arg6 : Memref sig .tc .vmem S1x512x2048 .f32) (harg6 : arg6.IsWhole) (arg7 : Memref sig .tc .vmem S1x1x512 .f32) (harg7 : arg7.IsWhole) (arg8 : Memref sig .tc .vmem S1x256x512 .f32) (harg8 : arg8.IsWhole)
    (x0 : Vec F S1x256x512 .f32) (x1 : Vec F S1x2048x512 .f32) (x2 : Vec F S1x1x2048 .f32) (x3 : Vec F S1x512x2048 .f32) (x4 : Vec F S1x1x512 .f32) (xt0 : TbBuf0 (F := F) c tbM0_0) (xt1 : TbBuf0 (F := F) c tbM0_1) :
    out0_A_5 c i arg3 harg3 arg4 harg4 arg5 harg5 arg6 harg6 arg7 harg7 arg8 harg8 x0 x1 x2 x3 x4 xt0 xt1 = k0_pay1 x0 x1 x2 x3 x4 := by
  unfold out0_A_5
  rw [View.read_writes_eq_canon _ _ _ (cover0_A_5 c i arg3 harg3 arg4 harg4 arg5 harg5 arg6 harg6 arg7 harg7 arg8 harg8 x0 x1 x2 x3 x4 xt0 xt1)]
  unfold kernelRun0_A
  dsimp only
  rw [View.canon_unit_zero hz3]
  simp only [View.readAt_eq_ld, Memref.IsWhole.read_unread, View.ld_unit_zero (S := S1x256x512) hz3,
    View.ld_unit_zero (S := S1x2048x512) hz3, View.ld_unit_zero (S := S1x1x2048) hz3,
    View.ld_unit_zero (S := S1x512x2048) hz3, View.ld_unit_zero (S := S1x1x512) hz3]

end Cert.KernelIdeal.Piece

end
-- ==== Proof.KFinal.lean ====
/-
  From the stored blocks to the result array.

  With the first table a permutation σ of the samples and the second the routing r along it (position b holds
  r (σ b)), grid point t computes sample σ t with expert r (σ t) and writes the block at first-axis index σ t of
  the per-sample result.  Consecutive points write different blocks (σ is injective), so every point writes its
  block back; every sample is some point's (σ is surjective), so the blocks cover the array; hence the array ends
  holding the per-sample result `Y` under routing r, whatever order the permutation visits the samples in.
-/
import proofs.«410971_j6536940224713_3_alg».proof.Proof.KPoint
import proofs.«410971_j6536940224713_3_alg».proof.Proof.KPiece

set_option maxRecDepth 16384

noncomputable section

open scoped BigOperators

namespace Cert.KernelIdeal.Final

open Cert.KernelIdeal Cert.KernelIdeal.Gen Cert.KernelIdeal.Index Cert.KernelIdeal.Blocks Cert.KernelIdeal.Point Cert.KernelIdeal.Piece
open Idealize.ShloMosaic Idealize.ShloMosaic.TcCoe Idealize.ShloMosaic.ValueIdx Idealize.SL.Sem
open Idealize.ShloMosaic.Pipeline (Dat Window)

variable (m : (ℓ : Loc nD τ sig) → Buf (Elt Ideal) ℓ) (ρ : Dev nD → PrngReg)

/-- The per-sample result [sample, token, output unit] of the arrays as the region finds them, under routing r. -/
def Yarr (r : Fin 64 → Fin 64) (c : Dev nD) : Vec Ideal S64x256x512 .f32 :=
  Cert.Moe.Y (V m c (Pipeline.arrRef spec0 0)) (V m c (Pipeline.arrRef spec0 1)) (sq (V m c (Pipeline.arrRef spec0 2)))
    (V m c (Pipeline.arrRef spec0 3)) (sq (V m c (Pipeline.arrRef spec0 4))) r

/-- WHAT POINT t WRITES BACK is block t of `Yarr`. -/
theorem flushed_eq (hO : Ok m) (pf : pre0.Contents (Elt Ideal)) (hpf : (adm m hO).1 = pf) (σ r : Fin 64 → Fin 64)
    (hσ : ∀ b : Fin 64, (pf 0 (ix1 b)).toNat = (σ b).val)
    (hr : ∀ b : Fin 64, (pf 1 (ix1 b)).toNat = (r (σ b)).val)
    (c : Dev nD) (t : Fin (cfgM m hO).N) :
    (dats m hO 0 c).flushed 5 t = (((cfgM m hO).win 5).blk t).view.read (Elt Ideal) (Yarr m r c) := by
  funext (y : S1x256x512.Idx)
  obtain ⟨u, p, q, rfl⟩ : ∃ (u : Fin 1) (p : Fin 256) (q : Fin 512), y = ix3 u p q :=
    ⟨y 0, y 1, y 2, eq_ix3 (n0 := 1) (n1 := 256) (n2 := 512) y⟩
  have hs : ((adm m hO).1 0 (ix1 (pt t))).toNat = (σ (pt t)).val := by rw [hpf]; exact hσ (pt t)
  have he : ((adm m hO).1 1 (ix1 (pt t))).toNat = (r (σ (pt t))).val := by rw [hpf]; exact hr (pt t)
  refine Eq.trans ?_ (read_blk5 (adm m hO) t (Yarr m r c) (σ (pt t)) hs u p q).symm
  show (dats m hO 0 c).after 5 t (ix3 u p q) = _
  rw [after0_5]
  unfold outsAt0
  refine (congrFun (out_eq_pay (F := Ideal) c (grid0.coords t) (ms0_0 m hO t) (hs0_0 m hO t) (ms0_1 m hO t) (hs0_1 m hO t)
    (ms0_2 m hO t) (hs0_2 m hO t) (ms0_3 m hO t) (hs0_3 m hO t) (ms0_4 m hO t) (hs0_4 m hO t) (ms0_5 m hO t) (hs0_5 m hO t)
    (iblk m hO c 0 t) (iblk m hO c 1 t) (iblk m hO c 2 t) (iblk m hO c 3 t) (iblk m hO c 4 t) (tbl m 0) (tbl m 1)) (ix3 u p q)).trans ?_
  unfold iblk
  exact point_value (adm m hO) t _ _ _ _ _ (σ (pt t)) (r (σ (pt t))) hs he u p q

/-- The result window's block index at a point is (σ of the point, 0, 0). -/
theorem index5_perm (hO : Ok m) (pf : pre0.Contents (Elt Ideal)) (hpf : (adm m hO).1 = pf) (σ : Fin 64 → Fin 64)
    (hσ : ∀ b : Fin 64, (pf 0 (ix1 b)).toNat = (σ b).val) (t : Fin (cfgM m hO).N) :
    ((cfgM m hO).win 5).index t = ![(σ (pt t)).val, 0, 0] := by
  rw [index5 (adm m hO) t, hpf, hσ]

/-- EVERY POINT WRITES ITS BLOCK BACK: the next point's block is another sample's. -/
theorem flush5 (hO : Ok m) (pf : pre0.Contents (Elt Ideal)) (hpf : (adm m hO).1 = pf) (σ : Fin 64 → Fin 64)
    (hinj : Function.Injective σ) (hσ : ∀ b : Fin 64, (pf 0 (ix1 b)).toNat = (σ b).val) (t : Fin (cfgM m hO).N) :
    ((cfgM m hO).win 5).flush t = true := by
  unfold Window.flush
  rw [show ((cfgM m hO).win 5).isOut = true from rfl, Bool.true_and, Bool.or_eq_true, decide_eq_true_eq, decide_eq_true_eq]
  by_cases hl : t.val + 1 = (cfgM m hO).N
  · exact Or.inl hl
  · have hlt : t.val + 1 < (cfgM m hO).N := by have := t.isLt; omega
    refine Or.inr ⟨hlt, fun heq => ?_⟩
    rw [index5_perm m hO pf hpf σ hσ, index5_perm m hO pf hpf σ hσ] at heq
    have h0 : (σ (pt ⟨t.val + 1, hlt⟩)).val = (σ (pt t)).val := congrFun heq 0
    have h1 : pt ⟨t.val + 1, hlt⟩ = pt t := hinj (Fin.ext h0)
    have h2 : t.val + 1 = t.val := congrArg Fin.val h1
    omega

/-- An index of the array is in point t's block iff each coordinate is in the block's range on its axis. -/
theorem mem_blk5 (hO : Ok m) (t : Fin (cfgM m hO).N) (i : S64x256x512.Idx) :
    i ∈ (((cfgM m hO).win 5).blk t).view.set ↔ ∀ a : Fin 3, ((cfgM m hO).win 5).index t a * S1x256x512.size a ≤ (i a).val
      ∧ (i a).val < ((cfgM m hO).win 5).index t a * S1x256x512.size a + S1x256x512.size a := by
  have e : (((cfgM m hO).win 5).blk t).view.set = (((cfgM m hO).win 5).rect t).set :=
    View.set_slice_whole main_v5 (((cfgM m hO).win 5).rect t)
  rw [e]
  exact Rect.mem_set_unit

/-- THE BLOCKS COVER THE ARRAY: sample s's block is written at the point σ sends to s. -/
theorem cover (hO : Ok m) (pf : pre0.Contents (Elt Ideal)) (hpf : (adm m hO).1 = pf) (σ : Fin 64 → Fin 64)
    (hbij : Function.Bijective σ) (hσ : ∀ b : Fin 64, (pf 0 (ix1 b)).toNat = (σ b).val) (i : S64x256x512.Idx) :
    ∃ t : Fin (cfgM m hO).N, ((cfgM m hO).win 5).flush t = true ∧ i ∈ (((cfgM m hO).win 5).blk t).view.set := by
  obtain ⟨b, hb⟩ := hbij.2 (⟨(i 0).val, (i 0).isLt⟩ : Fin 64)
  have hbv : (σ b).val = (i 0).val := congrArg Fin.val hb
  have hN : b.val < (cfgM m hO).N := lt_of_lt_of_eq b.isLt N_0.symm
  have hpt : pt (⟨b.val, hN⟩ : Fin (cfgM m hO).N) = b := Fin.ext rfl
  refine ⟨⟨b.val, hN⟩, flush5 m hO pf hpf σ hbij.1 hσ _, ?_⟩
  rw [mem_blk5, index5_perm m hO pf hpf σ hσ, hpt, hbv]
  have h1 : (i 1).val < 256 := (i 1).isLt
  have h2 : (i 2).val < 512 := (i 2).isLt
  intro a
  match a with
  | ⟨0, _⟩ => show (i 0).val * 1 ≤ (i 0).val ∧ (i 0).val < (i 0).val * 1 + 1; omega
  | ⟨1, _⟩ => show 0 * 256 ≤ (i 1).val ∧ (i 1).val < 0 * 256 + 256; omega
  | ⟨2, _⟩ => show 0 * 512 ≤ (i 2).val ∧ (i 2).val < 0 * 512 + 512; omega

/-- THE ARRAY AFTER THE REGION is the per-sample result under routing r. -/
theorem final (hO : Ok m) (pf : pre0.Contents (Elt Ideal)) (hpf : (adm m hO).1 = pf) (σ r : Fin 64 → Fin 64)
    (hbij : Function.Bijective σ) (hσ : ∀ b : Fin 64, (pf 0 (ix1 b)).toNat = (σ b).val)
    (hr : ∀ b : Fin 64, (pf 1 (ix1 b)).toNat = (r (σ b)).val) (c : Dev nD) :
    (dats m hO 0 c).arrAt 5 (cfgM m hO).N = Yarr m r c :=
  (dats m hO 0 c).arrAt_eq_of_cover 5 (Yarr m r c) (fun t _ => flushed_eq m hO pf hpf σ r hσ hr c t)
    (cover m hO pf hpf σ hbij hσ)

end Cert.KernelIdeal.Final

end
-- ==== Proof.KRun.lean ====
/-
  The idealized kernel's run, read at its result: every weakly fair execution ends with the result buffer at the
  function `G` of the argument arrays under the routing the integer input spells, and the arguments unchanged.

  The region leaves the per-sample result [sample, token, unit] in its output array (the blocks-to-array
  module); the one host operation after the region exchanges the first two axes, which is `G`; the arrays the
  region finds are the launch arrays, the two biases through a reshape that adds a unit middle axis.
-/
import proofs.«410971_j6536940224713_3_alg».proof.Proof.KFinal
import proofs.«410971_j6536940224713_3_alg».proof.Proof.TablesIdeal
import Idealize.ShloMosaic.Lib.StableHlo.Run

set_option maxRecDepth 16384

noncomputable section

namespace Cert.KernelIdeal.Run

open Cert.KernelIdeal Cert.KernelIdeal.Gen Cert.KernelIdeal.Index Cert.KernelIdeal.Point Cert.KernelIdeal.Final
open Idealize.ShloMosaic Idealize.ShloMosaic.TcCoe Idealize.ShloMosaic.ValueIdx Idealize.SL.Sem
open Idealize.ShloMosaic.Pipeline (Dat Window)

variable (m : (ℓ : Loc nD τ sig) → Buf (Elt Ideal) ℓ) (ρ : Dev nD → PrngReg)

/-! ## The biases as the region finds them -/

/-- The reshape that adds the unit middle axis writes its result from the array it reads … -/
theorem stage4_v3 (W : Valuation τ sig (Elt Ideal)) :
    (StableHlo.after hostOps0_4 W (Proc.devRef .tc main_v3) : Vec Ideal S64x1x2048 .f32)
      = shapeCast S64x1x2048 (W (Proc.devRef .tc main_arg3) : Vec Ideal S64x2048 .f32) shapeCasts_S64x2048_S64x1x2048 := by
  simp only [hostOps0_4]
  after_results
  rfl
theorem stage4_v4 (W : Valuation τ sig (Elt Ideal)) :
    (StableHlo.after hostOps0_4 W (Proc.devRef .tc main_v4) : Vec Ideal S64x1x512 .f32)
      = shapeCast S64x1x512 (W (Proc.devRef .tc main_arg5) : Vec Ideal S64x512 .f32) shapeCasts_S64x512_S64x1x512 := by
  simp only [hostOps0_4]
  after_results
  rfl
/-- … and leaves that array in place. -/
theorem stage4_arg3 (W : Valuation τ sig (Elt Ideal)) :
    StableHlo.after hostOps0_4 W (Proc.devRef .tc main_arg3) = W (Proc.devRef .tc main_arg3) := by
  simp only [hostOps0_4]
  after_results
theorem stage4_arg5 (W : Valuation τ sig (Elt Ideal)) :
    StableHlo.after hostOps0_4 W (Proc.devRef .tc main_arg5) = W (Proc.devRef .tc main_arg5) := by
  simp only [hostOps0_4]
  after_results

/-- The first bias as the region finds it: the launch array with a unit middle axis. -/
theorem V_main_v3 (c : Dev nD) :
    (V m c main_v3 : Vec Ideal S64x1x2048 .f32)
      = shapeCast S64x1x2048 (m ((c : Thread nD τ).loc main_arg3) : Vec Ideal S64x2048 .f32) shapeCasts_S64x2048_S64x1x2048 := by
  have e1 := congrFun (Tables.V0_stages m c) (Proc.devRef .tc main_v3)
  have e2 := congrFun (Tables.V0_stages m c) (Proc.devRef .tc main_arg3)
  rw [stage4_v3] at e1
  rw [stage4_arg3] at e2
  exact e1.trans (congrArg (fun X : Vec Ideal S64x2048 .f32 => shapeCast S64x1x2048 X shapeCasts_S64x2048_S64x1x2048)
    (e2.symm.trans (V_main_arg3 m c)))
/-- The second bias likewise. -/
theorem V_main_v4 (c : Dev nD) :
    (V m c main_v4 : Vec Ideal S64x1x512 .f32)
      = shapeCast S64x1x512 (m ((c : Thread nD τ).loc main_arg5) : Vec Ideal S64x512 .f32) shapeCasts_S64x512_S64x1x512 := by
  have e1 := congrFun (Tables.V0_stages m c) (Proc.devRef .tc main_v4)
  have e2 := congrFun (Tables.V0_stages m c) (Proc.devRef .tc main_arg5)
  rw [stage4_v4] at e1
  rw [stage4_arg5] at e2
  exact e1.trans (congrArg (fun X : Vec Ideal S64x512 .f32 => shapeCast S64x1x512 X shapeCasts_S64x512_S64x1x512)
    (e2.symm.trans (V_main_arg5 m c)))

/-- Reading a [64, n] array through the unit middle axis and back is the array. -/
theorem sq_shapeCast {n : Nat} (X : (⟨2, ![64, n]⟩ : Shape).Idx → EReal)
    (h : (⟨2, ![64, n]⟩ : Shape).ShapeCasts ⟨3, ![64, 1, n]⟩) : Point.sq (shapeCast ⟨3, ![64, 1, n]⟩ X h) = X := by
  funext j
  obtain ⟨e, k, rfl⟩ : ∃ (e : Fin 64) (k : Fin n), j = ix2 e k := ⟨j 0, j 1, eq_ix2 j⟩
  rw [Point.sq_apply]
  refine shapeCast_apply X h _ _ ?_
  rw [Shape.rowMajor_val_three, Shape.rowMajor_val_two]
  show e.val * n + k.val = (e.val * 1 + 0) * n + k.val
  rw [Nat.mul_one, Nat.add_zero]

/-! ## The exchange of the first two axes -/

/-- The per-sample result with its first two axes exchanged is `G`. -/
theorem transpose_Y (x : Cert.Moe.SX.Idx → EReal) (W1 : Cert.Moe.SW1.Idx → EReal) (b1 : Cert.Moe.SB1.Idx → EReal)
    (W2 : Cert.Moe.SW2.Idx → EReal) (b2 : Cert.Moe.SB2.Idx → EReal) (r : Fin 64 → Fin 64)
    (h : S64x256x512.Transposes [1, 0, 2] S256x64x512) :
    transpose S256x64x512 [1, 0, 2] (Cert.Moe.Y x W1 b1 W2 b2 r) h = Cert.Moe.G x W1 b1 W2 b2 r := by
  funext j
  obtain ⟨t, s, o, rfl⟩ : ∃ (t : Fin 256) (s : Fin 64) (o : Fin 512), j = ix3 t s o := ⟨j 0, j 1, j 2, eq_ix3 j⟩
  refine (transpose_apply [1, 0, 2] _ h (ix3 t s o) (ix3 s t o) ?_).trans rfl
  intro b
  fin_cases b <;> rfl

/-! ## The arrays the region finds are the launch arrays -/

/-- The per-sample result of the arrays as the region finds them is that of the launch arrays. -/
theorem Yarr_eq (r : Fin 64 → Fin 64) (c : Dev nD) :
    Yarr m r c = Cert.Moe.Y (m ((c : Thread nD τ).loc main_arg1)) (m ((c : Thread nD τ).loc main_arg2)) (m ((c : Thread nD τ).loc main_arg3))
      (m ((c : Thread nD τ).loc main_arg4)) (m ((c : Thread nD τ).loc main_arg5)) r := by
  have a0 : V m c (Pipeline.arrRef spec0 0) = m ((c : Thread nD τ).loc main_arg1) := V_main_arg1 m c
  have a1 : V m c (Pipeline.arrRef spec0 1) = m ((c : Thread nD τ).loc main_arg2) := V_main_arg2 m c
  have a2 : Point.sq (V m c (Pipeline.arrRef spec0 2)) = m ((c : Thread nD τ).loc main_arg3) :=
    (congrArg Point.sq (V_main_v3 m c)).trans (sq_shapeCast _ _)
  have a3 : V m c (Pipeline.arrRef spec0 3) = m ((c : Thread nD τ).loc main_arg4) := V_main_arg4 m c
  have a4 : Point.sq (V m c (Pipeline.arrRef spec0 4)) = m ((c : Thread nD τ).loc main_arg5) :=
    (congrArg Point.sq (V_main_v4 m c)).trans (sq_shapeCast _ _)
  unfold Yarr
  rw [a0, a1, a2, a3, a4]

/-- THE KERNEL'S RUN with its result named. -/
theorem run (hin : ∀ s : Fin 64, (Cert.KernelIdeal.Tables.routing m (ix1 s)).toNat < 64) :
    θ_run defs (onTc (τ := τ) (main (F := Ideal))) ⟨m, fun _ => 0, ρ⟩ (fun r => ∀ c : Dev nD,
      r.2.mem ((c.tc : Thread nD τ).loc main_v6)
          = Cert.Moe.G (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (Cert.Moe.route (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hO : Ok m := Tables.ok m hin
  obtain ⟨σ, hbij, hσ, hr'⟩ := Tables.exists_perm m hin
  have hr : ∀ b : Fin 64, (tbl m 1 (ix1 b)).toNat = (Cert.Moe.route (Tables.routing m) (σ b)).val :=
    fun b => (hr' b).trans (Cert.Moe.route_val _ _ (hin _)).symm
  -- the output array after the region
  have hfin : ∀ c : Dev nD, (dats m hO 0 c).arrAt 5 (cfgM m hO).N = Yarr m (Cert.Moe.route (Tables.routing m)) c :=
    fun c => final m hO (tbl m) rfl σ (Cert.Moe.route (Tables.routing m)) hbij hσ hr c
  refine (θ_run defs _ _).mono (fun r h c => ?_) (run_main m ρ hO)
  refine ⟨?_, (((h c).2 main_arg0 (by decide : main_arg0 ∈ Pipeline.restRefs sig spec0)).trans (W_main_arg0 m hO (dats m hO) c)),
      ((h c).1 0).trans (((dats m hO 0 c).arrAt_in 0 rfl _).trans ((A_eq m hO c 0).trans (V_main_arg1 m c))),
      ((h c).1 1).trans (((dats m hO 0 c).arrAt_in 1 rfl _).trans ((A_eq m hO c 1).trans (V_main_arg2 m c))),
      (((h c).2 main_arg3 (by decide : main_arg3 ∈ Pipeline.restRefs sig spec0)).trans (W_main_arg3 m hO (dats m hO) c)),
      ((h c).1 3).trans (((dats m hO 0 c).arrAt_in 3 rfl _).trans ((A_eq m hO c 3).trans (V_main_arg4 m c))),
      (((h c).2 main_arg5 (by decide : main_arg5 ∈ Pipeline.restRefs sig spec0)).trans (W_main_arg5 m hO (dats m hO) c))⟩
  -- the result: the one operation after the region, applied to the output array
  refine ((h c).2 main_v6 (by decide : main_v6 ∈ Pipeline.restRefs sig spec0)).trans ?_
  unfold Pipeline.afterTail
  simp only [List.flatten_cons, List.flatten_nil, List.append_nil, hostOps1]
  after_results
  -- the output array is window 5's; it holds the per-sample result of the launch arrays
  have hw : Pipeline.withArrays (Pipeline.pin pcfgs (fun _ => adm m hO) 0).spec c (V0 m c)
      (fun w => (dats m hO 0 c).arrAt w (Pipeline.pin pcfgs (fun _ => adm m hO) 0).N) (Proc.devRef .tc main_v5)
      = Yarr m (Cert.Moe.route (Tables.routing m)) c :=
    (Pipeline.withArrays_arr _ winFacts0.arr_inj c _ _ 5).trans (hfin c)
  refine (congrArg (fun X : Vec Ideal S64x256x512 .f32 =>
    transpose S256x64x512 [1, 0, 2] X transposes_S64x256x512_S256x64x512_1_0_2) (hw.trans (Yarr_eq m _ c))).trans ?_
  -- there is one device: the routing read on it is the routing
  obtain rfl : c = 0 := Subsingleton.elim _ _
  exact transpose_Y _ _ _ _ _ _ _

end Cert.KernelIdeal.Run

end
-- ==== Proof.RefValue.lean ====
/-
  The reference's result, stage by stage, is the function G of the argument arrays: with every routing word in
  range the index it gathers at is the word itself, each gather reads the routed expert's slice, the two
  contractions are the two sums, and the last stage exchanges the sample and token axes.

  First the gather of whole rows, read at an index, for a rank-3 and a rank-2 operand of any extents: the
  result at (r, …) is the operand at row "start index of r, read signed and clamped into the operand", the
  other coordinates kept.  Then the routing word: in range it is not negative, so the wrap of negative indices
  leaves it, its signed and unsigned readings agree, and the clamp is the specification's cap.  Then the four
  gathers, the two layers, and the result.
-/
import proofs.«410971_j6536940224713_3_alg».proof.Proof.Gen.ReferenceIdeal.Read
import proofs.«410971_j6536940224713_3_alg».proof.Proof.Spec
import Idealize.ShloMosaic.Lib.ValueIdx
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-! ## A gather of whole rows, read at an index -/

section Rows
variable {α : Type}

/-- The dimension numbers of a gather of whole rows from a rank-3 operand [N, H, D] by an [M, 1] column of start
    indices: axis 0 collapsed and start-indexed, the offset axes 1 and 2, the index vector on axis 1. -/
abbrev rows3 (N M H D : Nat)
    (wf : GatherDims.WF ⟨3, ![N, H, D]⟩ ⟨2, ![M, 1]⟩ ⟨3, ![M, H, D]⟩ [1, 2] [0] [] [0] [] 1 ![1, H, D]) :
    GatherDims ⟨3, ![N, H, D]⟩ ⟨2, ![M, 1]⟩ ⟨3, ![M, H, D]⟩ where
  offsetDims := [1, 2]
  collapsedSliceDims := [0]
  operandBatchingDims := []
  startIndicesBatchingDims := []
  startIndexMap := [0]
  indexVectorDim := 1
  sliceSizes := ![1, H, D]
  wf := wf

private theorem ne10 : ¬ (1 : Fin 3) = 0 := by decide
private theorem ne20 : ¬ (2 : Fin 3) = 0 := by decide

/-- The rank-3 gather of rows read at (r, h, k): the operand at row "start index of r, read signed and clamped into
    [0, N − 1]", the other two coordinates kept.  Axis 0 has no batching and no offset part, so its coordinate is
    the clamped start; axes 1 and 2 are not start-indexed, so their coordinates are the result's own. -/
theorem gather_rows3 {N M H D w : Nat} (hN : 0 < N)
    (wf : GatherDims.WF ⟨3, ![N, H, D]⟩ ⟨2, ![M, 1]⟩ ⟨3, ![M, H, D]⟩ [1, 2] [0] [] [0] [] 1 ![1, H, D])
    (x : (⟨3, ![N, H, D]⟩ : Shape).Idx → α) (idx : IVec ⟨2, ![M, 1]⟩ w) (r : Fin M) (h : Fin H) (k : Fin D) :
    Host.gather (rows3 N M H D wf) x idx (ix3 r h k)
      = x (ix3 ⟨min (idx (ix2 r (0 : Fin 1))).toInt.toNat (N - 1), by omega⟩ h k) := by
  unfold Host.gather
  congr 1
  funext a
  refine Fin.ext ?_
  match a with
  | ⟨0, _⟩ =>
    show (rows3 N M H D wf).start (ix3 r h k) idx 0 + (rows3 N M H D wf).batchCoord (ix3 r h k) 0
        + (rows3 N M H D wf).offCoord (ix3 r h k) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 3) ∈ (rows3 N M H D wf).startIndexMap from List.mem_singleton.mpr rfl)]
    have hsi : (rows3 N M H D wf).siIdx (ix3 r h k) ⟨List.idxOf (0 : Fin 3) (rows3 N M H D wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rows3 N M H D wf).start (ix3 r h k) idx 1 + (rows3 N M H D wf).batchCoord (ix3 r h k) 1
        + (rows3 N M H D wf).offCoord (ix3 r h k) 1 = h.val
    rw [GatherDims.batchCoord_eq_zero _ _ _ List.not_mem_nil]
    unfold GatherDims.start
    rw [dif_neg (show ¬ (1 : Fin 3) ∈ (rows3 N M H D wf).startIndexMap from fun hm => absurd (List.mem_singleton.mp hm) ne10)]
    unfold GatherDims.offCoord
    rw [dif_pos (show (1 : Fin 3) ∈ (rows3 N M H D wf).sKept from (GatherDims.mem_sKept _ _).mpr ⟨fun hm => absurd (List.mem_singleton.mp hm) ne10, List.not_mem_nil⟩)]
    simp only [Nat.zero_add]
    rfl
  | ⟨2, _⟩ =>
    show (rows3 N M H D wf).start (ix3 r h k) idx 2 + (rows3 N M H D wf).batchCoord (ix3 r h k) 2
        + (rows3 N M H D wf).offCoord (ix3 r h k) 2 = k.val
    rw [GatherDims.batchCoord_eq_zero _ _ _ List.not_mem_nil]
    unfold GatherDims.start
    rw [dif_neg (show ¬ (2 : Fin 3) ∈ (rows3 N M H D wf).startIndexMap from fun hm => absurd (List.mem_singleton.mp hm) ne20)]
    unfold GatherDims.offCoord
    rw [dif_pos (show (2 : Fin 3) ∈ (rows3 N M H D wf).sKept from (GatherDims.mem_sKept _ _).mpr ⟨fun hm => absurd (List.mem_singleton.mp hm) ne20, List.not_mem_nil⟩)]
    simp only [Nat.zero_add]
    rfl

/-- The dimension numbers of a gather of whole rows from a rank-2 operand [N, H] by an [M, 1] column of start
    indices: axis 0 collapsed and start-indexed, the offset axis 1, the index vector on axis 1. -/
abbrev rows2 (N M H : Nat)
    (wf : GatherDims.WF ⟨2, ![N, H]⟩ ⟨2, ![M, 1]⟩ ⟨2, ![M, H]⟩ [1] [0] [] [0] [] 1 ![1, H]) :
    GatherDims ⟨2, ![N, H]⟩ ⟨2, ![M, 1]⟩ ⟨2, ![M, H]⟩ where
  offsetDims := [1]
  collapsedSliceDims := [0]
  operandBatchingDims := []
  startIndicesBatchingDims := []
  startIndexMap := [0]
  indexVectorDim := 1
  sliceSizes := ![1, H]
  wf := wf

private theorem ne10' : ¬ (1 : Fin 2) = 0 := by decide

/-- The rank-2 gather of rows read at (r, h): the operand at row "start index of r, read signed and clamped into
    [0, N − 1]", column h. -/
theorem gather_rows2 {N M H w : Nat} (hN : 0 < N)
    (wf : GatherDims.WF ⟨2, ![N, H]⟩ ⟨2, ![M, 1]⟩ ⟨2, ![M, H]⟩ [1] [0] [] [0] [] 1 ![1, H])
    (x : (⟨2, ![N, H]⟩ : Shape).Idx → α) (idx : IVec ⟨2, ![M, 1]⟩ w) (r : Fin M) (h : Fin H) :
    Host.gather (rows2 N M H wf) x idx (ix2 r h)
      = x (ix2 ⟨min (idx (ix2 r (0 : Fin 1))).toInt.toNat (N - 1), by omega⟩ h) := by
  unfold Host.gather
  congr 1
  funext a
  refine Fin.ext ?_
  match a with
  | ⟨0, _⟩ =>
    show (rows2 N M H wf).start (ix2 r h) idx 0 + (rows2 N M H wf).batchCoord (ix2 r h) 0
        + (rows2 N M H wf).offCoord (ix2 r h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rows2 N M H wf).startIndexMap from List.mem_singleton.mpr rfl)]
    have hsi : (rows2 N M H wf).siIdx (ix2 r h) ⟨List.idxOf (0 : Fin 2) (rows2 N M H wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rows2 N M H wf).start (ix2 r h) idx 1 + (rows2 N M H wf).batchCoord (ix2 r h) 1
        + (rows2 N M H wf).offCoord (ix2 r h) 1 = h.val
    rw [GatherDims.batchCoord_eq_zero _ _ _ List.not_mem_nil]
    unfold GatherDims.start
    rw [dif_neg (show ¬ (1 : Fin 2) ∈ (rows2 N M H wf).startIndexMap from fun hm => absurd (List.mem_singleton.mp hm) ne10')]
    unfold GatherDims.offCoord
    rw [dif_pos (show (1 : Fin 2) ∈ (rows2 N M H wf).sKept from (GatherDims.mem_sKept _ _).mpr ⟨fun hm => absurd (List.mem_singleton.mp hm) ne10', List.not_mem_nil⟩)]
    simp only [Nat.zero_add]
    rfl

end Rows

/-! ## The routing word -/

/-- A routing word in range is not negative: the wrap of negative indices leaves it. -/
theorem wrap_eq (w : BitVec 32) (hw : w.toNat < 64) :
    Scalar.select (IntOp.cmpi .slt w 0#32) (IntOp.addi w 64#32) w = w := by
  have hn : ¬ IntOp.cmpi .slt w 0#32 = 1#1 := by
    rw [StableHlo.Predicate.slt_iff_toNat (by omega) (by decide)]
    exact Nat.not_lt_zero _
  exact if_neg hn

/-- Read signed, a routing word in range is its unsigned value. -/
theorem toInt_toNat_eq (w : BitVec 32) (hw : w.toNat < 64) : w.toInt.toNat = w.toNat := by
  rw [StableHlo.Predicate.toInt_eq_toNat_of_lt (by omega)]
  exact Int.toNat_natCast _

/-- The start-index column at sample s is the routing word of s. -/
theorem word5 (i : IVec S64 32) (s : Fin 64) (hs : (i (ix1 s)).toNat < 64) :
    val_main_v5 (F := Ideal) i (ix2 s (0 : Fin 1)) = i (ix1 s) := by
  rw [val_main_v5_apply]
  have e : idx_main_v5 (ix2 s (0 : Fin 1)) = ix1 s := funext fun a => by match a with | ⟨0, _⟩ => rfl
  rw [e, val_main_v4_apply, val_main_v1_apply, val_main_v3_apply, val_main_v0_apply, val_main_c_apply,
    val_main_v2_apply, val_main_c_0_apply]
  exact wrap_eq _ hs

theorem v12_eq (i : IVec S64 32) : val_main_v12 (F := Ideal) i = val_main_v5 (F := Ideal) i := rfl
theorem v19_eq (i : IVec S64 32) : val_main_v19 (F := Ideal) i = val_main_v5 (F := Ideal) i := rfl
theorem v26_eq (i : IVec S64 32) : val_main_v26 (F := Ideal) i = val_main_v5 (F := Ideal) i := rfl

/-- The clamped start row of sample s is the routed expert. -/
theorem start_row (i : IVec S64 32) (s : Fin 64) (hs : (i (ix1 s)).toNat < 64) (hlt : min (val_main_v5 (F := Ideal) i (ix2 s (0 : Fin 1))).toInt.toNat (64 - 1) < 64) :
    (⟨min (val_main_v5 (F := Ideal) i (ix2 s (0 : Fin 1))).toInt.toNat (64 - 1), hlt⟩ : Fin 64) = Cert.Moe.route i s := by
  refine Fin.ext ?_
  show min (val_main_v5 (F := Ideal) i (ix2 s (0 : Fin 1))).toInt.toNat (64 - 1) = min (i (ix1 s)).toNat 63
  rw [word5 i s hs, toInt_toNat_eq _ hs]

/-! ## The four gathers -/

theorem v6_apply (i : IVec S64 32) (W1 : FVec Ideal S64x2048x512 .f32) (s : Fin 64) (hs : (i (ix1 s)).toNat < 64)
    (h : Fin 2048) (d : Fin 512) :
    val_main_v6 (F := Ideal) i W1 (ix3 s h d) = W1 (ix3 (Cert.Moe.route i s) h d) := by
  unfold val_main_v6
  refine (gather_rows3 (N := 64) (M := 64) (H := 2048) (D := 512) (by decide)
    gather_S64x2048x512_S64x1_S64x2048x512_12_0_n_n_0_1_12048512_wf W1 (val_main_v5 (F := Ideal) i) s h d).trans ?_
  exact congrArg (fun e => W1 (ix3 e h d)) (start_row i s hs _)

theorem v20_apply (i : IVec S64 32) (W2 : FVec Ideal S64x512x2048 .f32) (s : Fin 64) (hs : (i (ix1 s)).toNat < 64)
    (o : Fin 512) (h : Fin 2048) :
    val_main_v20 (F := Ideal) i W2 (ix3 s o h) = W2 (ix3 (Cert.Moe.route i s) o h) := by
  unfold val_main_v20
  rw [v19_eq]
  refine (gather_rows3 (N := 64) (M := 64) (H := 512) (D := 2048) (by decide)
    gather_S64x512x2048_S64x1_S64x512x2048_12_0_n_n_0_1_15122048_wf W2 (val_main_v5 (F := Ideal) i) s o h).trans ?_
  exact congrArg (fun e => W2 (ix3 e o h)) (start_row i s hs _)

theorem v13_apply (i : IVec S64 32) (b1 : FVec Ideal S64x2048 .f32) (s : Fin 64) (hs : (i (ix1 s)).toNat < 64)
    (h : Fin 2048) :
    val_main_v13 (F := Ideal) i b1 (ix2 s h) = b1 (ix2 (Cert.Moe.route i s) h) := by
  unfold val_main_v13
  rw [v12_eq]
  refine (gather_rows2 (N := 64) (M := 64) (H := 2048) (by decide)
    gather_S64x2048_S64x1_S64x2048_1_0_n_n_0_1_12048_wf b1 (val_main_v5 (F := Ideal) i) s h).trans ?_
  exact congrArg (fun e => b1 (ix2 e h)) (start_row i s hs _)

theorem v27_apply (i : IVec S64 32) (b2 : FVec Ideal S64x512 .f32) (s : Fin 64) (hs : (i (ix1 s)).toNat < 64)
    (o : Fin 512) :
    val_main_v27 (F := Ideal) i b2 (ix2 s o) = b2 (ix2 (Cert.Moe.route i s) o) := by
  unfold val_main_v27
  rw [v26_eq]
  refine (gather_rows2 (N := 64) (M := 64) (H := 512) (by decide)
    gather_S64x512_S64x1_S64x512_1_0_n_n_0_1_1512_wf b2 (val_main_v5 (F := Ideal) i) s o).trans ?_
  exact congrArg (fun e => b2 (ix2 e o)) (start_row i s hs _)

/-! ## The two layers -/

/-- The first layer after its rectifier, at (sample s, token t, hidden unit h), is the specification's hidden
    activation under the routed expert's weights. -/
theorem v32_apply (i : IVec S64 32) (x : FVec Ideal S64x256x512 .f32) (W1 : FVec Ideal S64x2048x512 .f32)
    (b1 : FVec Ideal S64x2048 .f32) (s : Fin 64) (hs : (i (ix1 s)).toNat < 64) (t : Fin 256) (h : Fin 2048) :
    val_main_v32 (F := Ideal) i x W1 b1 (ix3 s t h) = Cert.Moe.hid x W1 b1 (Cert.Moe.route i s) s t h := by
  rw [val_main_v32_apply, val_main_v31_apply, val_main_v28_apply, val_main_v30_apply, val_main_v29_apply,
    val_main_call0_v0_apply, val_main_call0_cst_apply, Ideal.maximumf_def, Ideal.addf_def, Ideal.ofBits_def]
  have eb : idx_main_v29 (idx_main_v30 (ix3 s t h)) = ix2 s h := funext fun a => by
    match a with | ⟨0, _⟩ => rfl | ⟨1, _⟩ => rfl
  rw [eb, v13_apply i b1 s hs h]
  unfold Cert.Moe.hid
  refine congrArg (fun e => max (e + b1 (ix2 (Cert.Moe.route i s) h)) (Ideal.ofBits .f32 0x00000000#32)) ?_
  refine Finset.sum_congr rfl fun d _ => ?_
  have el : lidx_main_v28 (ix3 s t h) d = ix3 s t d := funext fun a => by
    match a with | ⟨0, _⟩ => rfl | ⟨1, _⟩ => rfl | ⟨2, _⟩ => rfl
  have er : ridx_main_v28 (ix3 s t h) d = ix3 s h d := funext fun a => by
    match a with | ⟨0, _⟩ => rfl | ⟨1, _⟩ => rfl | ⟨2, _⟩ => rfl
  rw [el, er, v6_apply i W1 s hs h d]

/-- The second layer at (sample s, token t, output unit o) is the specification's output under the routed
    expert's weights. -/
theorem v36_apply (i : IVec S64 32) (x : FVec Ideal S64x256x512 .f32) (W1 : FVec Ideal S64x2048x512 .f32)
    (b1 : FVec Ideal S64x2048 .f32) (W2 : FVec Ideal S64x512x2048 .f32) (b2 : FVec Ideal S64x512 .f32)
    (s : Fin 64) (hs : (i (ix1 s)).toNat < 64) (t : Fin 256) (o : Fin 512) :
    val_main_v36 (F := Ideal) i x W1 b1 W2 b2 (ix3 s t o)
      = Cert.Moe.out x W1 b1 W2 b2 (Cert.Moe.route i s) s t o := by
  rw [val_main_v36_apply, val_main_v33_apply, val_main_v35_apply, val_main_v34_apply, Ideal.addf_def]
  have eb : idx_main_v34 (idx_main_v35 (ix3 s t o)) = ix2 s o := funext fun a => by
    match a with | ⟨0, _⟩ => rfl | ⟨1, _⟩ => rfl
  rw [eb, v27_apply i b2 s hs o]
  unfold Cert.Moe.out
  refine congrArg (fun e => e + b2 (ix2 (Cert.Moe.route i s) o)) ?_
  refine Finset.sum_congr rfl fun h _ => ?_
  have el : lidx_main_v33 (ix3 s t o) h = ix3 s t h := funext fun a => by
    match a with | ⟨0, _⟩ => rfl | ⟨1, _⟩ => rfl | ⟨2, _⟩ => rfl
  have er : ridx_main_v33 (ix3 s t o) h = ix3 s o h := funext fun a => by
    match a with | ⟨0, _⟩ => rfl | ⟨1, _⟩ => rfl | ⟨2, _⟩ => rfl
  rw [el, er, v32_apply i x W1 b1 s hs t h, v20_apply i W2 s hs o h]

/-! ## The result -/

/-- The reference's last stage is G at the routing the integer input spells. -/
theorem result_eq (i : IVec S64 32) (x : FVec Ideal S64x256x512 .f32) (W1 : FVec Ideal S64x2048x512 .f32) (b1 : FVec Ideal S64x2048 .f32)
    (W2 : FVec Ideal S64x512x2048 .f32) (b2 : FVec Ideal S64x512 .f32) (hin : ∀ s : Fin 64, (i (ix1 s)).toNat < 64) :
    val_main_v37 (F := Ideal) i x W1 b1 W2 b2 = Cert.Moe.G x W1 b1 W2 b2 (Cert.Moe.route i) := by
  funext j
  obtain ⟨t, s, o, rfl⟩ : ∃ (t : Fin 256) (s : Fin 64) (o : Fin 512), j = ix3 t s o := ⟨j 0, j 1, j 2, eq_ix3 j⟩
  rw [val_main_v37_apply]
  have e : idx_main_v37 (ix3 t s o) = ix3 s t o := funext fun a => by
    match a with | ⟨0, _⟩ => rfl | ⟨1, _⟩ => rfl | ⟨2, _⟩ => rfl
  rw [e]
  exact v36_apply i x W1 b1 W2 b2 s (hin s) t o

end Cert.ReferenceIdeal.RefValue

end
-- ==== Proof.lean ====
/-
  A routed two-layer perceptron: sample s of 64 is sent to expert i[s] of 64, and for each of its 256 tokens
      hidden = max (x[s] · W1[e]ᵀ + b1[e]) 0,    out = hidden · W2[e]ᵀ + b2[e],    e = i[s],
  the result laid out [token, sample, output unit].

  The reference gathers each sample's expert parameters and contracts sample by sample.  The kernel clamps the
  routing words to [0, 63], sorts the samples by expert, and runs one grid point per position of the sorted order:
  point t loads sample σ t (σ the sorting permutation, read from one prefetched table) and the parameters of
  expert i[σ t] (the other table), computes the same two layers, and writes block σ t of a [sample, token, unit]
  array, which a transpose after the region turns into the result.  Because σ is a permutation of the samples,
  every block is written exactly once, whatever the order; no property of the order is used.  On extended reals the
  changes of float format are the identity and both programs' contractions are the same finite sums, so no law
  beyond reindexing joins the two sides, and finiteness of the float inputs is not used.

  The precondition adds, to finiteness of the float inputs, that every routing word lies in [0, 64): the range of
  the expert axis it indexes.  Within it the kernel's clamp, the reference's wrap of negative indices and its
  gather's clamp all leave the word as it is.  It is also what puts every table-indexed block inside its array,
  which the two kernel frames need.
-/
import proofs.«410971_j6536940224713_3_alg».proof.Defs
import proofs.«410971_j6536940224713_3_alg».proof.Proof.Gen.Kernel
import proofs.«410971_j6536940224713_3_alg».proof.Proof.Gen.Kernel.Frame
import proofs.«410971_j6536940224713_3_alg».proof.Proof.Gen.KernelIdeal
import proofs.«410971_j6536940224713_3_alg».proof.Proof.Gen.KernelIdeal.Frame
import proofs.«410971_j6536940224713_3_alg».proof.Proof.Gen.ReferenceIdeal
import proofs.«410971_j6536940224713_3_alg».proof.Proof.Gen.ReferenceIdeal.Run
import proofs.«410971_j6536940224713_3_alg».proof.Proof.Gen.ReferenceIdeal.Read
import proofs.«410971_j6536940224713_3_alg».proof.Proof.Gen.Pre_finite_inputs
import proofs.«410971_j6536940224713_3_alg».proof.Proof.PreDecode
import proofs.«410971_j6536940224713_3_alg».proof.Proof.TablesIdeal
import proofs.«410971_j6536940224713_3_alg».proof.Proof.TablesBits
import proofs.«410971_j6536940224713_3_alg».proof.Proof.KRun
import proofs.«410971_j6536940224713_3_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- Under the precondition every routing word of the word-level program's launch memory is below 64. -/
theorem routing_lt_bits (m : (ℓ : Loc Cert.Kernel.nD Cert.Kernel.τ Cert.Kernel.sig) → Buf (Elt Bits) ℓ) (h : Cert.Pre_Kernel m) (s : Fin 64) :
    (Cert.Kernel.Tables.routing m (ix1 s)).toNat < 64 :=
  Cert.Moe.PreDecode.idx_lt_of_pre _ _ _ _ _ _ (h 0) s

/-- The same for the idealized program's launch memory. -/
theorem routing_lt_ideal (m : (ℓ : Loc Cert.KernelIdeal.nD Cert.KernelIdeal.τ Cert.KernelIdeal.sig) → Buf (Elt Ideal) ℓ) (h : Cert.Pre_KernelIdeal m)
    (s : Fin 64) : (Cert.KernelIdeal.Tables.routing m (ix1 s)).toNat < 64 :=
  Cert.Moe.PreDecode.idx_lt_of_pre _ _ _ _ _ _ (h 0) s

/-- The word-level kernel runs and leaves its arguments: the generated frame, its tables' blocks inside their arrays. -/
theorem frame_k : Cert.frame_Kernel := fun m ρ h =>
  Cert.Kernel.Gen.frame m ρ (Cert.Kernel.Tables.ok m (routing_lt_bits m h))

/-- The idealized kernel likewise. -/
theorem frame_ki : Cert.frame_KernelIdeal := fun m ρ h =>
  Cert.KernelIdeal.Gen.frame m ρ (Cert.KernelIdeal.Tables.ok m (routing_lt_ideal m h))

/-- The reference is a host program: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end at the routed perceptron `G` of arguments that agree. -/
theorem algebraic : Cert.algebraic_KernelIdeal_ReferenceIdeal := by
  intro m ρ m' ρ' hpre hagree
  have hin := routing_lt_ideal m hpre
  refine ⟨_, Cert.KernelIdeal.Run.run m ρ hin, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [(hagree 0).1, (hagree 0).2.1, (hagree 0).2.2.1, (hagree 0).2.2.2.1, (hagree 0).2.2.2.2.1, (hagree 0).2.2.2.2.2]
  exact (Cert.ReferenceIdeal.Read.val_main_v37_eq _ _ _ _ _ _).trans
    (Cert.ReferenceIdeal.RefValue.result_eq _ _ _ _ _ _ hin)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
